-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S512x512 : Shape := ⟨2, ![512, 512]⟩
abbrev S1000x512 : Shape := ⟨2, ![1000, 512]⟩
abbrev S4096 : Shape := ⟨1, ![4096]⟩
abbrev S512 : Shape := ⟨1, ![512]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S1000x512 : S_.BroadcastsInDim S1000x512 (![] : Fin 0 → Fin S1000x512.rank)
  reducesTo_S1000x512_S_d0_1 : S1000x512.ReducesTo [0, 1] S_
  bcast_S_S4096 : S_.BroadcastsInDim S4096 (![] : Fin 0 → Fin S4096.rank)
  reducesTo_S4096_S_d0 : S4096.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S4096 .f32) (main_arg5 : FVec F S512x4096 .f32) (main_arg6 : FVec F S512 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S512x4096 .f32) (main_arg1 : FVec F S512x512 .f32) (main_arg2 : FVec F S1000x512 .f32) (main_arg3 : FVec F S4096 .f32) (main_arg4 : FVec F S4096 .f32) (main_arg5 : FVec F S512x4096 .f32) (main_arg6 : FVec F S512 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S512x4096 : Shape := ⟨2, ![512, 4096]⟩
abbrev S512x512 : Shape := ⟨2, ![512, 512]⟩
abbrev S1000x512 : Shape := ⟨2, ![1000, 512]⟩
abbrev S4096 : Shape := ⟨1, ![4096]⟩
abbrev S512 : Shape := ⟨1, ![512]⟩
abbrev S1x4096 : Shape := ⟨2, ![1, 4096]⟩
abbrev S1x512 : Shape := ⟨2, ![1, 512]⟩
abbrev S512x1 : Shape := ⟨2, ![512, 1]⟩
abbrev S512x1024 : Shape := ⟨2, ![512, 1024]⟩
abbrev S1x1024 : Shape := ⟨2, ![1, 1024]⟩
abbrev S1024 : Shape := ⟨1, ![1024]⟩
abbrev S_ : Shape := ⟨0, ![]⟩
abbrev S1024x512 : Shape := ⟨2, ![1024, 512]⟩
abbrev S32x512 : Shape := ⟨2, ![32, 512]⟩
abbrev S128x512 : Shape := ⟨2, ![128, 512]⟩
abbrev S32x128 : Shape := ⟨2, ![32, 128]⟩
abbrev S1x128x512 : Shape := ⟨3, ![1, 128, 512]⟩
abbrev S32x1x512 : Shape := ⟨3, ![32, 1, 512]⟩
abbrev S32x128x512 : Shape := ⟨3, ![32, 128, 512]⟩
abbrev S512x1000 : Shape := ⟨2, ![512, 1000]⟩
abbrev S512000 : Shape := ⟨1, ![512000]⟩
abbrev S512000x1 : Shape := ⟨2, ![512000, 1]⟩

abbrev nBuf : Space → Nat
  | .hbm => 23
  | .vmem => 19
  | .smem => 0
  | _ => 0

abbrev bufTy : (tb : Table) → Fin (tcTables nBuf tb) → BufTy
  | .hbm, ⟨0, _⟩ => ⟨S512x4096, .f32⟩
  | .hbm, ⟨1, _⟩ => ⟨S512x512, .f32⟩
  | .hbm, ⟨2, _⟩ => ⟨S1000x512, .f32⟩
  | .hbm, ⟨3, _⟩ => ⟨S4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S1x4096, .f32⟩
  | .hbm, ⟨8, _⟩ => ⟨S1x4096, .f32⟩
  | .hbm, ⟨9, _⟩ => ⟨S1x512, .f32⟩
  | .hbm, ⟨10, _⟩ => ⟨S512x512, .f32⟩
  | .hbm, ⟨11, _⟩ => ⟨S512x1, .f32⟩
  | .hbm, ⟨12, _⟩ => ⟨S_, .f32⟩
  | .hbm, ⟨13, _⟩ => ⟨S_, .f32⟩
  | .hbm, ⟨14, _⟩ => ⟨S1024x512, .f32⟩
  | .hbm, ⟨15, _⟩ => ⟨S512x1024, .f32⟩
  | .hbm, ⟨16, _⟩ => ⟨S512, .f32⟩
  | .hbm, ⟨17, _⟩ => ⟨S512x1000, .f32⟩
  | .hbm, ⟨18, _⟩ => ⟨S512000, .f32⟩
  | .hbm, ⟨19, _⟩ => ⟨S512000x1, .f32⟩
  | .hbm, ⟨20, _⟩ => ⟨S512x1000, .f32⟩
  | .hbm, ⟨21, _⟩ => ⟨S512000, .f32⟩
  | .hbm, ⟨22, _⟩ => ⟨S512000x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x1, .f32⟩
  | .local _ .vmem, ⟨12, _⟩ => ⟨S512x512, .f32⟩
  | .local _ .vmem, ⟨13, _⟩ => ⟨S32x512, .f32⟩
  | .local _ .vmem, ⟨14, _⟩ => ⟨S32x512, .f32⟩
  | .local _ .vmem, ⟨15, _⟩ => ⟨S128x512, .f32⟩
  | .local _ .vmem, ⟨16, _⟩ => ⟨S128x512, .f32⟩
  | .local _ .vmem, ⟨17, _⟩ => ⟨S32x128, .f32⟩
  | .local _ .vmem, ⟨18, _⟩ => ⟨S32x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4096_S1x4096 : S4096.ShapeCasts S1x4096
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1024_S1x1024 : S1024.ShapeCasts S1x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  pads_S1000x512_S1024x512_0240_000 : S1000x512.Pads (![0, 0] : Fin 2 → Nat) ![24, 0] ![0, 0] S1024x512
  h_S_ : 0 < S_.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S128x512_S1x128x512 : S128x512.ShapeCasts S1x128x512
  shapeCasts_S32x512_S32x1x512 : S32x512.ShapeCasts S32x1x512
  broadcasts_S1x128x512_S32x128x512 : S1x128x512.Broadcasts S32x128x512
  broadcasts_S32x1x512_S32x128x512 : S32x1x512.Broadcasts S32x128x512
  reduces_S32x128x512_S32x128 : S32x128x512.Reduces [2] S32x128
  inb_S32x128_S32x128_0_0 : ∀ a, (![0, 0] : Fin 2 → Nat) a + S32x128.size a ≤ S32x128.size a
  h_S32x128 : 0 < S32x128.numel
  shapeCasts_S512x1_S512 : S512x1.ShapeCasts S512
  bcast_S512_S512x1000_0 : S512.BroadcastsInDim S512x1000 (![0] : Fin 1 → Fin S512x1000.rank)
  shapeCasts_S512x1000_S512000 : S512x1000.ShapeCasts S512000
  bcast_S512000_S512000x1_0 : S512000.BroadcastsInDim S512000x1 (![0] : Fin 1 → Fin S512000x1.rank)
  slices_S512x1024_S512x1000_0_0 : S512x1024.Slices ![0, 0] S512x1000
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x4096.size a
  hwx0_0 : ∀ i : grid0.Coords, EltTy.bits .f32 = 32 ∨ (Rect.block (s := S512x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .f32 = 32 ∨ (Rect.block (s := S512x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x512.size a ≤ S512x512.size a
  hwx1_0 : ∀ i : grid1.Coords, EltTy.bits .f32 = 32 ∨ (Rect.block (s := S512x512) S32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S1024x512.size a
  hwx1_1 : ∀ i : grid1.Coords, EltTy.bits .f32 = 32 ∨ (Rect.block (s := S1024x512) S128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S512x1024.size a
  hwx1_2 : ∀ i : grid1.Coords, EltTy.bits .f32 = 32 ∨ (Rect.block (s := S512x1024) S32x128.size (cc1_transform_2 i) (hinb1_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S512x512.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S512x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v3_0) S32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x4096 : Shape := ⟨2, ![512, 4096]⟩
abbrev S512x512 : Shape := ⟨2, ![512, 512]⟩
abbrev S1000x512 : Shape := ⟨2, ![1000, 512]⟩
abbrev S4096 : Shape := ⟨1, ![4096]⟩
abbrev S512 : Shape := ⟨1, ![512]⟩
abbrev S_ : Shape := ⟨0, ![]⟩
abbrev S1x4096 : Shape := ⟨2, ![1, 4096]⟩
abbrev S4096x512 : Shape := ⟨2, ![4096, 512]⟩
abbrev S1x512 : Shape := ⟨2, ![1, 512]⟩
abbrev S1x1000x512 : Shape := ⟨3, ![1, 1000, 512]⟩
abbrev S512x1x512 : Shape := ⟨3, ![512, 1, 512]⟩
abbrev S512x1000x512 : Shape := ⟨3, ![512, 1000, 512]⟩
abbrev S512x1000 : Shape := ⟨2, ![512, 1000]⟩
abbrev S512000 : Shape := ⟨1, ![512000]⟩
abbrev S512000x1 : Shape := ⟨2, ![512000, 1]⟩

abbrev nBuf : Space → Nat
  | .hbm => 65
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x512, .f32⟩
  | .hbm, ⟨2, _⟩ => ⟨S1000x512, .f32⟩
  | .hbm, ⟨3, _⟩ => ⟨S4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S512x4096, .f32⟩
  | .hbm, ⟨14, _⟩ => ⟨S512x4096, .f32⟩
  | .hbm, ⟨15, _⟩ => ⟨S512x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S512x4096, .f32⟩
  | .hbm, ⟨30, _⟩ => ⟨S512x4096, .f32⟩
  | .hbm, ⟨31, _⟩ => ⟨S1x4096, .f32⟩
  | .hbm, ⟨32, _⟩ => ⟨S512x4096, .f32⟩
  | .hbm, ⟨33, _⟩ => ⟨S512x4096, .f32⟩
  | .hbm, ⟨34, _⟩ => ⟨S1x4096, .f32⟩
  | .hbm, ⟨35, _⟩ => ⟨S512x4096, .f32⟩
  | .hbm, ⟨36, _⟩ => ⟨S512x4096, .f32⟩
  | .hbm, ⟨37, _⟩ => ⟨S4096x512, .f32⟩
  | .hbm, ⟨38, _⟩ => ⟨S512x512, .f32⟩
  | .hbm, ⟨39, _⟩ => ⟨S1x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512, .f32⟩
  | .hbm, ⟨49, _⟩ => ⟨S1x1000x512, .f32⟩
  | .hbm, ⟨50, _⟩ => ⟨S512x1x512, .f32⟩
  | .hbm, ⟨51, _⟩ => ⟨S512x1000x512, .f32⟩
  | .hbm, ⟨52, _⟩ => ⟨S512x1000x512, .f32⟩
  | .hbm, ⟨53, _⟩ => ⟨S512x1000x512, .f32⟩
  | .hbm, ⟨54, _⟩ => ⟨S_, .f32⟩
  | .hbm, ⟨55, _⟩ => ⟨S512x1000x512, .f32⟩
  | .hbm, ⟨56, _⟩ => ⟨S512x1000x512, .f32⟩
  | .hbm, ⟨57, _⟩ => ⟨S512x1000x512, .f32⟩
  | .hbm, ⟨58, _⟩ => ⟨S_, .f32⟩
  | .hbm, ⟨59, _⟩ => ⟨S512x1000, .f32⟩
  | .hbm, ⟨60, _⟩ => ⟨S512x1000, .f32⟩
  | .hbm, ⟨61, _⟩ => ⟨S512000, .f32⟩
  | .hbm, ⟨62, _⟩ => ⟨S512000x1, .f32⟩
  | .hbm, ⟨63, _⟩ => ⟨S512000, .f32⟩
  | .hbm, ⟨64, _⟩ => ⟨S512000x1, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  reducesTo_S512x4096_S4096_d0 : S512x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  transposes_S512x4096_S4096x512_1_0 : S512x4096.Transposes [1, 0] S4096x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  bcast_S1000x512_S1x1000x512_1_2 : S1000x512.BroadcastsInDim S1x1000x512 (![1, 2] : Fin 2 → Fin S1x1000x512.rank)
  bcast_S512x512_S512x1x512_0_2 : S512x512.BroadcastsInDim S512x1x512 (![0, 2] : Fin 2 → Fin S512x1x512.rank)
  bcast_S1x1000x512_S512x1000x512_0_1_2 : S1x1000x512.BroadcastsInDim S512x1000x512 (![0, 1, 2] : Fin 3 → Fin S512x1000x512.rank)
  bcast_S512x1x512_S512x1000x512_0_1_2 : S512x1x512.BroadcastsInDim S512x1000x512 (![0, 1, 2] : Fin 3 → Fin S512x1000x512.rank)
  bcast_S_S512x1000x512 : S_.BroadcastsInDim S512x1000x512 (![] : Fin 0 → Fin S512x1000x512.rank)
  reducesTo_S512x1000x512_S512x1000_d2 : S512x1000x512.ReducesTo [2] S512x1000
  bcast_S512_S512x1000_0 : S512.BroadcastsInDim S512x1000 (![0] : Fin 1 → Fin S512x1000.rank)
  shapeCasts_S512x1000_S512000 : S512x1000.ShapeCasts S512000
  bcast_S512000_S512000x1_0 : S512000.BroadcastsInDim S512000x1 (![0] : Fin 1 → Fin S512000x1.rank)
  dot_S512x4096_S4096x512_S512x512_1_0_0_1_n_n_wf : DotDims.WF S512x4096 S4096x512 S512x512 [1] [0] [0] [1] [] []

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

class Facts : Prop extends Facts₀ where

variable [Facts]
-- ==== Proof.Bits.R0Base.lean ====
/-
  Region 0 (the embedding kernel: batch-norm of a 512 x 1024 column tile, its bf16 product with the matching tile of W
  added into a 512 x 512 accumulator kept in scratch, and at the last of the four tiles the bias added, the embedding
  stored and the positive energy row sums stored): what every part of its frame is stated over.

  * the blocks the six input windows hold at a grid point, read off the arrays as the region finds them;
  * the two branch conditions of the body decided over the four grid points: the accumulator is reset at point 0 only,
    the two outputs are stored at point 3 only (elsewhere their windows are idle and not written back);
  * the accumulator after each point, by recursion on the point: the body's accumulate payload of the point's four
    tiles over the zero payload at point 0, over the previous point's accumulator afterwards;
  * the region invariant before each point: the scoped rest as the launch hands it before point 0, afterwards the
    scratch at the previous point's accumulator;
  * the proof data: inputs at their blocks, the two outputs at the bias payload and the row-sum payload of the
    point's accumulator (consulted at the last point only).
-/
import proofs.«103377_j10213432230335_1_alg».proof.Proof.Gen.Kernel.Launch
import proofs.«103377_j10213432230335_1_alg».proof.Proof.Gen.Kernel.Skeleton
import proofs.«103377_j10213432230335_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered
variable (V : (c : Dev nD) → (b : Ref sig .tc) → Buf (Elt F) ((c : Thread nD τ).loc b))

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches over the grid -/

/-- The accumulator reset is taken exactly at the first tile. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The outputs are emitted exactly at the last tile. -/
abbrev cond0_1 (i : grid0.Coords) : Prop := k0_cond2 i = 1#1
theorem hcond0_1 : ∀ t : Fin cfg0.N, cond0_1 (grid0.coords t) ↔ t.val = 3 :=
  (by decide +kernel : ∀ t : Fin grid0.N, cond0_1 (grid0.coords t) ↔ t.val = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-- Output window 6 is stored only at the last point: before it the window is idle and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- Output window 7 is stored only at the last point: before it the window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0_0 : Memref sig .tc .vmem S512x512 .f32 := Memref.whole cc0_scratch0

/-- The class invariant with the scratch as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

/-- The scoped buffers of the other region, each at some contents: they ride through region 0 untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-! ## The accumulator point by point -/

/-- The accumulator after the body at point `n`: the accumulate payload of the point's tiles (the batch tile, its scale
    and shift rows, the weight tile) over the zero payload at the first point, over the previous point's afterwards. -/
def accAt0 (c : Dev nD) : (n : ℕ) → n < cfg0.N → Vec F S512x512 .f32
  | 0, hn => k0_pay4 (iblk0 V c 0 ⟨0, hn⟩) (iblk0 V c 2 ⟨0, hn⟩) (iblk0 V c 3 ⟨0, hn⟩) (iblk0 V c 1 ⟨0, hn⟩) (k0_pay3 (F := F))
  | n + 1, hn => k0_pay4 (iblk0 V c 0 ⟨n + 1, hn⟩) (iblk0 V c 2 ⟨n + 1, hn⟩) (iblk0 V c 3 ⟨n + 1, hn⟩) (iblk0 V c 1 ⟨n + 1, hn⟩) (accAt0 c n (Nat.lt_of_succ_lt hn))

theorem accAt0_zero (c : Dev nD) (t : Fin cfg0.N) (h : t.val = 0) :
    accAt0 V c t.val t.isLt = k0_pay4 (iblk0 V c 0 t) (iblk0 V c 2 t) (iblk0 V c 3 t) (iblk0 V c 1 t) (k0_pay3 (F := F)) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = k0_pay4 (iblk0 V c 0 t) (iblk0 V c 2 t) (iblk0 V c 3 t) (iblk0 V c 1 t)
      (accAt0 V c (t.val - 1) (Nat.lt_of_le_of_lt (Nat.sub_le _ _) t.isLt)) := by
  obtain ⟨n, hn⟩ := t
  cases n with
  | zero => exact absurd rfl h
  | succ n => rfl

/-- The region invariant before position `n`: the class's before the first point; afterwards the scratch at the previous
    point's accumulator, the other region's scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt0 V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt0 V c (n - 1) (by omega)) ∗ others0 c) ∗ (∃ r, prngReg c r)) := by
  cases n with
  | zero => exact absurd rfl hz
  | succ n => rfl

/-! ## The proof data -/

/-- Region 0's proof data on core `c`: the arrays as the region finds them; after the body each input's buffer at its
    block, the embedding output at the bias payload of the point's accumulator and the energy output at the row-sum
    payload of it (both consulted at the last point only: before it the two windows are idle); the tracked invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay1 (accAt0 V c t.val t.isLt) (iblk0 V c 4 t)
    | ⟨7, _⟩ => k0_pay2 (accAt0 V c t.val t.isLt) (iblk0 V c 4 t) (iblk0 V c 5 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay1 (accAt0 V c t.val t.isLt) (iblk0 V c 4 t) := by dsimp only [dat0]
theorem after0_7 (c : Dev nD) (t : Fin cfg0.N) : (dat0 V c).after 7 t = k0_pay2 (accAt0 V c t.val t.isLt) (iblk0 V c 4 t) (iblk0 V c 5 t) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

end Cert.Kernel.Hand

end
-- ==== Proof.Bits.R0RunA.lean ====
/-
  Region 0's body at a grid point of the first tile: the accumulator is reset to the zero payload, then the tile's product is added; the outputs are not touched.
-/
import proofs.«103377_j10213432230335_1_alg».proof.Proof.Bits.R0Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body goes through the rectangle of the buffer's own extents at offsets `[0, 0]`: both offsets are zero. -/
private theorem hz00 : (![0, 0] : Fin 2 → Nat) = fun _ => 0 := funext fun a => by fin_cases a <;> rfl

set_option maxHeartbeats 4000000 in
theorem run0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i)
    (x0 x1 : Vec F S512x1024 .f32) (x2 x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k0_pay4 x0 x2 x3 x1 (k0_pay3 (F := F)))) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  -- the body as its memory operations over the named payloads
  rw [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  -- a whole buffer is determined by what is read through it
  obtain rfl := harg1.eq_unread hf0; obtain rfl := harg2.eq_unread hf1; obtain rfl := harg3.eq_unread hf2; obtain rfl := harg4.eq_unread hf3
  -- first tile: the reset branch is taken, the output branch is not
  sl_exec (disch := first | exact hc0 | exact hc1)
  sl_step
  iapply Hk
  -- the four inputs are only read: they come back at their contents
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  -- the accumulator: two whole-buffer stores, the zero payload and then the accumulate payload over it
  iexists _; isplitr; swap; · iexact HS0
  ipureintro
  -- the later store covers every index, so the buffer reads as that store's payload
  rw [View.read_writes_eq_canon _ _ _ (fun y => ⟨_, List.mem_cons_self, View.mem_set_unit_zero hz00 inb_S512x512_S512x512_0_0 y⟩)]
  rw [View.canon_cons_unit_zero (S := S512x512) hz00]
  sl_unfold_words
  -- the accumulator loaded between the two stores is the zero payload just stored
  rw [View.readCov_unit_zero (S := S512x512) _ hz00]
  -- each input load is of the whole buffer: it reads the contents
  simp only [View.readAt_eq_ld, harg1.read_unread, harg2.read_unread, harg3.read_unread, harg4.read_unread,
    View.ld_unit_zero (S := S512x1024) hz00, View.ld_unit_zero (S := S1x1024) hz00]

end Cert.Kernel.Hand

end
-- ==== Proof.Bits.R0RunB.lean ====
/-
  Region 0's body at a grid point of a middle tile: the tile's product is added to the accumulator the point before left; the outputs are not touched.
-/
import proofs.«103377_j10213432230335_1_alg».proof.Proof.Bits.R0Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body goes through the rectangle of the buffer's own extents at offsets `[0, 0]`: both offsets are zero. -/
private theorem hz00 : (![0, 0] : Fin 2 → Nat) = fun _ => 0 := funext fun a => by fin_cases a <;> rfl

set_option maxHeartbeats 4000000 in
theorem run0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i)
    (x0 x1 : Vec F S512x1024 .f32) (x2 x3 : Vec F S1x1024 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k0_pay4 x0 x2 x3 x1 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  -- the body as its memory operations over the named payloads
  rw [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  -- a whole buffer is determined by what is read through it: the inputs and the accumulator alike
  obtain rfl := harg1.eq_unread hf0; obtain rfl := harg2.eq_unread hf1; obtain rfl := harg3.eq_unread hf2; obtain rfl := harg4.eq_unread hf3
  obtain rfl := harg9.eq_unread hfs0
  -- a middle tile: neither the reset branch nor the output branch is taken
  sl_exec (disch := first | exact hc0 | exact hc1)
  sl_step
  iapply Hk
  -- the four inputs are only read: they come back at their contents
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  -- the accumulator: one whole-buffer store of the accumulate payload over what the point before left
  iexists _; isplitr; swap; · iexact HS0
  ipureintro
  -- the store covers every index, so the buffer reads as its payload
  rw [View.read_writes_eq_canon _ _ _ (fun y => ⟨_, List.mem_cons_self, View.mem_set_unit_zero hz00 inb_S512x512_S512x512_0_0 y⟩)]
  rw [View.canon_unit_zero (S := S512x512) hz00]
  -- each load, the accumulator's included, is of the whole buffer: it reads the contents
  simp only [View.readAt_eq_ld, harg1.read_unread, harg2.read_unread, harg3.read_unread, harg4.read_unread, harg9.read_unread,
    View.ld_unit_zero (S := S512x1024) hz00, View.ld_unit_zero (S := S1x1024) hz00, View.ld_unit_zero (S := S512x512) hz00]

end Cert.Kernel.Hand

end
-- ==== Proof.Bits.R0RunC.lean ====
/-
  Region 0's body at a grid point of the last tile: the tile's product is added to the accumulator, then the bias is added and the embedding and the energy row sums are stored.
-/
import proofs.«103377_j10213432230335_1_alg».proof.Proof.Bits.R0Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The unit rectangle's offsets are all zero. -/
private theorem offs_zero : (![0, 0] : Fin 2 → Nat) = fun _ => 0 := funext fun a => by fin_cases a <;> rfl

set_option maxHeartbeats 4000000 in
theorem run0_C (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i)
    (x0 x1 : Vec F S512x1024 .f32) (x2 x3 : Vec F S1x1024 .f32) (x4 : Vec F S1x512 .f32) (x5 : Vec F S512x512 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay1 (k0_pay4 x0 x2 x3 x1 xs) x4) ∗ owns (c : Thread nD τ) arg8 fullShare (k0_pay2 (k0_pay4 x0 x2 x3 x1 xs) x4 x5)
            ∗ owns (c : Thread nD τ) arg9 fullShare (k0_pay4 x0 x2 x3 x1 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  rw [cc0__emb_kernel_eq_skeleton]; unfold cc0__emb_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  -- a whole buffer's raw contents are determined by what they read
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg9.eq_unread hf9
  -- the body, the reset skipped and the output branch taken
  sl_exec (disch := first | exact hc0 | exact hc1)
  sl_step
  iapply Hk
  -- the six inputs are as they were
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  -- the embedding: one whole store of the bias payload, over the accumulator read back after its own whole store
  isplitl [H7]
  · iexists _; isplitr; swap; · iexact H7
    ipureintro
    sl_unfold_words
    rw [View.read_writes_eq_canon _ _ _ (fun y => ⟨_, List.mem_singleton_self _, View.mem_set_unit_zero offs_zero inb_S512x512_S512x512_0_0 y⟩),
      View.canon_unit_zero offs_zero, View.readCov_unit_zero (S := S512x512) _ offs_zero]
    simp only [View.readAt_eq_ld, harg1.read_unread, harg2.read_unread, harg3.read_unread, harg4.read_unread, harg5.read_unread, harg6.read_unread, harg9.read_unread, View.ld_unit_zero (S := S512x1024) offs_zero, View.ld_unit_zero (S := S1x1024) offs_zero, View.ld_unit_zero (S := S512x512) offs_zero, View.ld_unit_zero (S := S1x512) offs_zero]
  -- the energy row sums: one whole store of the row-sum payload, over the same accumulator
  isplitl [H8]
  · iexists _; isplitr; swap; · iexact H8
    ipureintro
    sl_unfold_words
    rw [View.read_writes_eq_canon _ _ _ (fun y => ⟨_, List.mem_singleton_self _, View.mem_set_unit_zero offs_zero inb_S512x1_S512x1_0_0 y⟩),
      View.canon_unit_zero offs_zero, View.readCov_unit_zero (S := S512x512) _ offs_zero]
    simp only [View.readAt_eq_ld, harg1.read_unread, harg2.read_unread, harg3.read_unread, harg4.read_unread, harg5.read_unread, harg6.read_unread, harg9.read_unread, View.ld_unit_zero (S := S512x1024) offs_zero, View.ld_unit_zero (S := S1x1024) offs_zero, View.ld_unit_zero (S := S512x512) offs_zero, View.ld_unit_zero (S := S1x512) offs_zero]
  -- the accumulator: one whole store of the accumulate payload over the previous accumulator
  iexists _; isplitr; swap; · iexact H9
  ipureintro
  sl_unfold_words
  rw [View.read_writes_eq_canon _ _ _ (fun y => ⟨_, List.mem_singleton_self _, View.mem_set_unit_zero offs_zero inb_S512x512_S512x512_0_0 y⟩),
    View.canon_unit_zero offs_zero]
  simp only [View.readAt_eq_ld, harg1.read_unread, harg2.read_unread, harg3.read_unread, harg4.read_unread, harg5.read_unread, harg6.read_unread, harg9.read_unread, View.ld_unit_zero (S := S512x1024) offs_zero, View.ld_unit_zero (S := S1x1024) offs_zero, View.ld_unit_zero (S := S512x512) offs_zero, View.ld_unit_zero (S := S1x512) offs_zero]

end Cert.Kernel.Hand

end
-- ==== Proof.Bits.R0Dat.lean ====
/-
  Region 0's body obligation: at each of the four tiles the body, handed the input blocks, the accumulator as the
  invariant holds it and (at the last tile) the two output buffers, runs and hands back the accumulator at the
  point's value and, at the last tile, the two outputs at their payloads; before the last tile the output windows
  are idle and are handed back untouched.
-/
import proofs.«103377_j10213432230335_1_alg».proof.Proof.Bits.R0RunA
import proofs.«103377_j10213432230335_1_alg».proof.Proof.Bits.R0RunB
import proofs.«103377_j10213432230335_1_alg».proof.Proof.Bits.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' posts, one by one -/

/-- An input window is live at every point: the body hands its buffer back at the block it found there. -/
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_5 t, after0_5]

/-- Before the last tile an output window is idle and not written back: its buffer is handed back as found. -/
theorem leaves0_6_idle (c : Dev nD) (t : Fin cfg0.N) (h1 : ¬cond0_1 (grid0.coords t)) :
    (dat0 V c).leavesExact 6 t = iprop(∃ d, owns (c : Thread nD τ) (ms0_6 t) fullShare ((dat0 V c).before 6 t d)) :=
  Dat.leavesExact_idle (dat0 V c) 6 t (idleAt0_6 t h1) (noFlush0_6 t h1)
theorem leaves0_7_idle (c : Dev nD) (t : Fin cfg0.N) (h1 : ¬cond0_1 (grid0.coords t)) :
    (dat0 V c).leavesExact 7 t = iprop(∃ d, owns (c : Thread nD τ) (ms0_7 t) fullShare ((dat0 V c).before 7 t d)) :=
  Dat.leavesExact_idle (dat0 V c) 7 t (idleAt0_7 t h1) (noFlush0_7 t h1)

/-- At the last tile both output windows are live: the embedding at the bias payload of the point's accumulator, the
    energy at the row-sum payload of it. -/
theorem leaves0_6_live (c : Dev nD) (t : Fin cfg0.N) (h1 : cond0_1 (grid0.coords t)) :
    (dat0 V c).leavesExact 6 t = owns (c : Thread nD τ) (ms0_6 t) fullShare (k0_pay1 (accAt0 V c t.val t.isLt) (iblk0 V c 4 t)) := by
  unfold Dat.leavesExact; rw [liveAt0_6 t h1, after0_6]
theorem leaves0_7_live (c : Dev nD) (t : Fin cfg0.N) (h1 : cond0_1 (grid0.coords t)) :
    (dat0 V c).leavesExact 7 t = owns (c : Thread nD τ) (ms0_7 t) fullShare (k0_pay2 (accAt0 V c t.val t.isLt) (iblk0 V c 4 t) (iblk0 V c 5 t)) := by
  unfold Dat.leavesExact; rw [liveAt0_7 t h1, after0_7]

/-! ## The body obligation, at a generic point -/

/-- What the body is called with at point `t`: the invariant before the point, what the core owes, and the eight
    windows' current staging buffers one by one. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What it returns: the invariant after the point, the same debt, and each window's buffer as the body leaves it. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- The body at any point. The six inputs' buffers hold their blocks; the closed forms of the two conditions say which of
    the three cases the point is in. At the first tile the invariant is the class's, so the accumulator is owned at
    some contents and the run resets it; at a later tile the invariant names the accumulator the point before left and
    the run adds the tile's product to it. Either way the accumulator comes back at this point's value (the recursion's
    equation for the point), and the other region's buffers and the generator register pass through. Before the last
    tile the two output windows are kept aside and handed back as found (idle, not written back); at the last tile
    the run takes them at any contents and leaves them at the two payloads of the point's accumulator. The core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  by_cases h0 : t.val = 0
  · -- the first tile: the accumulator is reset, then the tile's product added; the outputs stay idle
    have hc0 : cond0_0 (grid0.coords t) := (hcond0_0 t).mpr h0
    have hc1 : ¬cond0_1 (grid0.coords t) := fun h => by have := (hcond0_1 t).mp h; omega
    rw [leaves0_6_idle V c t hc1, leaves0_7_idle V c t hc1, accAt0_zero V c t h0]
    rw [PhiS_castSucc V c t, PhiS_zero V c _ _ h0, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, H6, H7⟩
    iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond0_0 (grid0.coords t) := fun h => h0 ((hcond0_0 t).mp h)
    rw [accAt0_pos V c t h0, PhiS_castSucc V c t, PhiS_pos V c _ _ h0]
    by_cases h1 : t.val = 3
    · -- the last tile: the product is added, then the bias added and both outputs stored
      have hc1 : cond0_1 (grid0.coords t) := (hcond0_1 t).mpr h1
      rw [leaves0_6_live V c t hc1, leaves0_7_live V c t hc1, accAt0_pos V c t h0]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk0 V c 0 t) (iblk0 V c 1 t) (iblk0 V c 2 t) (iblk0 V c 3 t) (iblk0 V c 4 t) (iblk0 V c 5 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle tile: the product is added to what the point before left; the outputs stay idle
      have hc1 : ¬cond0_1 (grid0.coords t) := fun h => h1 ((hcond0_1 t).mp h)
      rw [leaves0_6_idle V c t hc1, leaves0_7_idle V c t hc1]
      iintro ⟨⟨⟨HS, Hoth⟩, Hg⟩, Ho, ⟨%d0, H0⟩, ⟨%d1, H1⟩, ⟨%d2, H2⟩, ⟨%d3, H3⟩, ⟨%d4, H4⟩, ⟨%d5, H5⟩, H6, H7⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulator's named contents are
    forgotten, the other region's buffers and the generator register pass through. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- After the last point the invariant gives the class invariant back: the accumulator's contents are forgotten. -/
theorem hout0 (c : Dev nD) : (dat0 V c).Φ (Fin.last cfg0.N) ⊢ Pipeline.ΦA spec0 c :=
  Phi_out0 V c _ (by rw [Fin.val_last]; have : cfg0.N = 4 := N_0; omega)

end Cert.Kernel.Hand

end
-- ==== Proof.Bits.R1.lean ====
/-
  Region 1 (the negative-energy kernel: for a 32-row tile of the embedding and a 128-row tile of the padded negatives,
  the 32 x 128 tile of sums over the 512 features of the squared positive part of negative minus embedding), grid 16 x 8.
  One control case, no scratch: the body loads its two input blocks whole and stores the payload of them whole.
-/
import proofs.«103377_j10213432230335_1_alg».proof.Proof.Gen.Kernel.Launch
import proofs.«103377_j10213432230335_1_alg».proof.Proof.Gen.Kernel.Skeleton
import proofs.«103377_j10213432230335_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the arrays as the region finds them; after the body each input's buffer at its
    block and the output's at the energy payload of the two input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-! ## The input windows' staging buffers -/

/-- Input window 0 (the embedding tile) holds its block at every point, fetched there or not: where it is not fetched
    its block index has not moved, the window is uncut and never idle, and the body leaves the block in place. -/
private theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ s, (cfg1.win 0).cut (cfg1.grid.coords s) (dat.after 0 s) = dat.blockOf 0 s := by
    intro s; rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- Input window 1 (the negatives tile), fetched at every point, likewise. -/
private theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ s, (cfg1.win 1).cut (cfg1.grid.coords s) (dat.after 1 s) = dat.blockOf 1 s := by
    intro s; rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

private theorem before1_0 (c : Dev nD) (t : Fin cfg1.N) (d) : (dat1 V c).before 0 t d = iblk1 V c 0 t :=
  before1_0_of V (dat1 V c) (A_eq1 V c 0) (after1_0 V c) t d

private theorem before1_1 (c : Dev nD) (t : Fin cfg1.N) (d) : (dat1 V c).before 1 t d = iblk1 V c 1 t :=
  before1_1_of V (dat1 V c) (A_eq1 V c 1) (after1_1 V c) t d

/-! ## The body's triple -/

/-- The offsets of a whole-buffer rectangle are zero on both axes. -/
private theorem off_zero : (![0, 0] : Fin 2 → Nat) = fun _ => 0 := funext fun a => by fin_cases a <;> rfl

/-- The one store, through the whole-buffer rectangle, covers the output buffer. -/
private theorem cover1_2 (p : Vec F S32x128 .f32) (y : S32x128.Idx) :
    ∃ pc ∈ ([⟨Rect.unit (s := S32x128) ![0, 0] S32x128.size inb_S32x128_S32x128_0_0, p⟩] : List (View.Piece (Elt F) S32x128 .f32)), y ∈ pc.1.set :=
  View.cover_of_tiled [⟨Rect.unit (s := S32x128) ![0, 0] S32x128.size inb_S32x128_S32x128_0_0, p⟩] S32x128.size (by rfl) y

set_option maxHeartbeats 1000000 in
/-- The kernel body on whole staging memrefs: with the two inputs owned at `x0`, `x1` and the output at anything, it runs
    to the continuation with the inputs unchanged and the output at exactly the energy payload of `x0` and `x1`.
    Three whole-buffer loads (the third, of the output, is unused) and one whole-buffer store: what one covering
    store at zero offsets leaves is its payload, and a load at zero offsets reads the contents. -/
private theorem sound_kernel1 (c : Dev nD) (E : Set ℕ) (i : grid1.Coords)
    (arg2 : Memref sig .tc .vmem S32x512 .f32) (harg2 : arg2.IsWhole)
    (arg3 : Memref sig .tc .vmem S128x512 .f32) (harg3 : arg3.IsWhole)
    (arg4 : Memref sig .tc .vmem S32x128 .f32) (harg4 : arg4.IsWhole)
    (x0 : Vec F S32x512 .f32) (x1 : Vec F S128x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__ne_kernel i arg2 harg2 arg3 harg3 arg4 harg4) K := by
  simp only [cc1__ne_kernel_eq_skeleton]; unfold cc1__ne_kernel_skel
  unfold owns
  iintro ⟨⟨%f0, %hf0, H0⟩, ⟨%f1, %hf1, H1⟩, ⟨%d2, %f2, -, H2⟩, Hk⟩
  subst hf0; subst hf1
  sl_exec
  sl_step
  iapply Hk
  -- the inputs, as they were
  isplitl [H0]
  · iexists f0; isplitr
    · ipureintro; rfl
    · iexact H0
  isplitl [H1]
  · iexists f1; isplitr
    · ipureintro; rfl
    · iexact H1
  -- the output: one covering store at zero offsets, its payload over two loads at zero offsets
  iexists _; isplitr
  swap
  · iexact H2
  ipureintro
  rw [View.read_writes_eq_canon _ _ _ (cover1_2 _), View.canon_unit_zero off_zero]
  simp only [View.readAt_eq_ld, View.ld_unit_zero (S := S32x512) off_zero, View.ld_unit_zero (S := S128x512) off_zero]

/-! ## The body obligation, at a generic point -/

/-- What the body is handed at point `t`: the invariant, the core's debts, and each window's current staging buffer. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both input buffers hold their blocks, so the kernel's triple applies at those blocks; the
    invariant is the same at every point and nothing is owed, so both pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.RunDefs.lean ====
/-
  The unscoped buffers' contents at each boundary between two items of the program, as a fold from the launch memory:
  the three reshapes, region 0 (its arrays at what the pipeline leaves), the pad constant, the pad of the negatives,
  region 1, and the seven closing layout operations.
-/
import proofs.«103377_j10213432230335_1_alg».proof.Proof.Bits.R0Base
import proofs.«103377_j10213432230335_1_alg».proof.Proof.Bits.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the three reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the pad constant. -/
abbrev W3 : Dev nD → Valuation τ sig (Elt F) := fun c => StableHlo.after hostOps1 (W2 m c)
/-- After the pad of the negatives (region 1's entry). -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the closing layout operations: what the program returns. -/
abbrev W6 : Dev nD → Valuation τ sig (Elt F) := fun c => StableHlo.after hostOps2 (W5 m c)

end Cert.Kernel.Hand

end
-- ==== Proof.Bits.Run.lean ====
/-
  The program's run: the launch, then the six items of the program in order — the three reshapes, region 0, the pad
  constant, the pad, region 1, the seven closing layout operations — each entered from the unscoped buffers' contents
  the item before left. Every weakly fair execution terminates, nothing faulting, and the final memory has every
  unscoped buffer at the last boundary's contents. The frame follows: no item writes an argument array (a region
  reads it through an input window, whose array the pipeline leaves as entered, or bypasses it).
-/
import proofs.«103377_j10213432230335_1_alg».proof.Proof.Bits.R0Dat
import proofs.«103377_j10213432230335_1_alg».proof.Proof.Bits.R1
import proofs.«103377_j10213432230335_1_alg».proof.Proof.Bits.RunDefs
import proofs.«103377_j10213432230335_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments reach the end as launched -/

/-- From the last boundary back to region 0's exit: a buffer that the three later host stretches do not write and
    that is no array of region 1. -/
theorem W6_to_W2 (c : Dev nD) (r : Ref sig .tc) (h1 : r ∉ hostOps1_W) (h11 : r ∉ hostOps1_1_W) (h2 : r ∉ hostOps2_W)
    (hr1 : ∀ w, Pipeline.arrRef spec1 w ≠ r) : W6 m c (Proc.devRef .tc r) = W2 m c (Proc.devRef .tc r) :=
  (StableHlo.after_of_writes_sub hostOps2 _ hostOps2_writes h2).trans <| (W5_of_ne m c r hr1).trans <|
    (StableHlo.after_of_writes_sub hostOps1_1 _ hostOps1_1_writes h11).trans (StableHlo.after_of_writes_sub hostOps1 _ hostOps1_writes h1)

/-- A buffer that is no array of region 0 and that the reshapes do not write is at region 0's exit as launched. -/
theorem W2_bypass (c : Dev nD) (r : Ref sig .tc) (h0 : r ∉ hostOps0_W) (hr0 : ∀ w, Pipeline.arrRef spec0 w ≠ r) :
    W2 m c (Proc.devRef .tc r) = m ((c : Thread nD τ).loc r) :=
  (W2_of_ne m c r hr0).trans ((StableHlo.after_of_writes_sub hostOps0 _ hostOps0_writes h0).trans rfl)

/-- An input window's array is at region 0's exit as entered, hence as launched when the reshapes do not write it. -/
theorem W2_input (c : Dev nD) (w : Fin cfg0.W) (hw : (cfg0.win w).isOut = false) (h0 : Pipeline.arrRef spec0 w ∉ hostOps0_W) :
    W2 m c (Proc.devRef .tc (Pipeline.arrRef spec0 w)) = m ((c : Thread nD τ).loc (Pipeline.arrRef spec0 w)) :=
  (W2_arr m c w).trans (((dat0 (V1 m) c).arrAt_in w hw _).trans ((A_eq0 (V1 m) c w).trans
    ((StableHlo.after_of_writes_sub hostOps0 _ hostOps0_writes h0).trans rfl)))

theorem W6_main_arg0 (c : Dev nD) : W6 m c (Proc.devRef .tc main_arg0) = m ((c : Thread nD τ).loc main_arg0) :=
  (W6_to_W2 m c main_arg0 (by decide) (by decide) (by decide) (by decide)).trans (W2_input m c 0 rfl (by decide))
theorem W6_main_arg1 (c : Dev nD) : W6 m c (Proc.devRef .tc main_arg1) = m ((c : Thread nD τ).loc main_arg1) :=
  (W6_to_W2 m c main_arg1 (by decide) (by decide) (by decide) (by decide)).trans (W2_input m c 5 rfl (by decide))
theorem W6_main_arg2 (c : Dev nD) : W6 m c (Proc.devRef .tc main_arg2) = m ((c : Thread nD τ).loc main_arg2) :=
  (W6_to_W2 m c main_arg2 (by decide) (by decide) (by decide) (by decide)).trans (W2_bypass m c main_arg2 (by decide) (by decide))
theorem W6_main_arg3 (c : Dev nD) : W6 m c (Proc.devRef .tc main_arg3) = m ((c : Thread nD τ).loc main_arg3) :=
  (W6_to_W2 m c main_arg3 (by decide) (by decide) (by decide) (by decide)).trans (W2_bypass m c main_arg3 (by decide) (by decide))
theorem W6_main_arg4 (c : Dev nD) : W6 m c (Proc.devRef .tc main_arg4) = m ((c : Thread nD τ).loc main_arg4) :=
  (W6_to_W2 m c main_arg4 (by decide) (by decide) (by decide) (by decide)).trans (W2_bypass m c main_arg4 (by decide) (by decide))
theorem W6_main_arg5 (c : Dev nD) : W6 m c (Proc.devRef .tc main_arg5) = m ((c : Thread nD τ).loc main_arg5) :=
  (W6_to_W2 m c main_arg5 (by decide) (by decide) (by decide) (by decide)).trans (W2_input m c 1 rfl (by decide))
theorem W6_main_arg6 (c : Dev nD) : W6 m c (Proc.devRef .tc main_arg6) = m ((c : Thread nD τ).loc main_arg6) :=
  (W6_to_W2 m c main_arg6 (by decide) (by decide) (by decide) (by decide)).trans (W2_bypass m c main_arg6 (by decide) (by decide))

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at its entry contents, left at its exit
    contents; its arrays split out of the unscoped buffers and put back at what the pipeline leaves; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents; its arrays split out of the unscoped buffers and put back at what the pipeline leaves; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run m ρ)

end Cert.Kernel.Hand

end
-- ==== Proof.Ideal.R0Base.lean ====
/-
  Region 0 (the embedding kernel: batch-norm of a 512 x 1024 column tile, its bf16 product with the matching tile of W
  added into a 512 x 512 accumulator kept in scratch, and at the last of the four tiles the bias added, the embedding
  stored and the positive energy row sums stored): what every part of its frame is stated over.

  * the blocks the six input windows hold at a grid point, read off the arrays as the region finds them;
  * the two branch conditions of the body decided over the four grid points: the accumulator is reset at point 0 only,
    the two outputs are stored at point 3 only (elsewhere their windows are idle and not written back);
  * the accumulator after each point, by recursion on the point: the body's accumulate payload of the point's four
    tiles over the zero payload at point 0, over the previous point's accumulator afterwards;
  * the region invariant before each point: the scoped rest as the launch hands it before point 0, afterwards the
    scratch at the previous point's accumulator;
  * the proof data: inputs at their blocks, the two outputs at the bias payload and the row-sum payload of the
    point's accumulator (consulted at the last point only).
-/
import proofs.«103377_j10213432230335_1_alg».proof.Proof.Gen.KernelIdeal.Launch
import proofs.«103377_j10213432230335_1_alg».proof.Proof.Gen.KernelIdeal.Skeleton
import proofs.«103377_j10213432230335_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 0 is entered
variable (V : (c : Dev nD) → (b : Ref sig .tc) → Buf (Elt F) ((c : Thread nD τ).loc b))

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches over the grid -/

/-- The accumulator reset is taken exactly at the first tile. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The outputs are emitted exactly at the last tile. -/
abbrev cond0_1 (i : grid0.Coords) : Prop := k0_cond2 i = 1#1
theorem hcond0_1 : ∀ t : Fin cfg0.N, cond0_1 (grid0.coords t) ↔ t.val = 3 :=
  (by decide +kernel : ∀ t : Fin grid0.N, cond0_1 (grid0.coords t) ↔ t.val = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-- Output window 6 is stored only at the last point: before it the window is idle and not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-- Output window 7 is stored only at the last point: before it the window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0_0 : Memref sig .tc .vmem S512x512 .f32 := Memref.whole cc0_scratch0

/-- The class invariant with the scratch as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

/-- The scoped buffers of the other region, each at some contents: they ride through region 0 untouched. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-! ## The accumulator point by point -/

/-- The accumulator after the body at point `n`: the accumulate payload of the point's tiles (the batch tile, its scale
    and shift rows, the weight tile) over the zero payload at the first point, over the previous point's afterwards. -/
def accAt0 (c : Dev nD) : (n : ℕ) → n < cfg0.N → Vec F S512x512 .f32
  | 0, hn => k0_pay4 (iblk0 V c 0 ⟨0, hn⟩) (iblk0 V c 2 ⟨0, hn⟩) (iblk0 V c 3 ⟨0, hn⟩) (iblk0 V c 1 ⟨0, hn⟩) (k0_pay3 (F := F))
  | n + 1, hn => k0_pay4 (iblk0 V c 0 ⟨n + 1, hn⟩) (iblk0 V c 2 ⟨n + 1, hn⟩) (iblk0 V c 3 ⟨n + 1, hn⟩) (iblk0 V c 1 ⟨n + 1, hn⟩) (accAt0 c n (Nat.lt_of_succ_lt hn))

theorem accAt0_zero (c : Dev nD) (t : Fin cfg0.N) (h : t.val = 0) :
    accAt0 V c t.val t.isLt = k0_pay4 (iblk0 V c 0 t) (iblk0 V c 2 t) (iblk0 V c 3 t) (iblk0 V c 1 t) (k0_pay3 (F := F)) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = k0_pay4 (iblk0 V c 0 t) (iblk0 V c 2 t) (iblk0 V c 3 t) (iblk0 V c 1 t)
      (accAt0 V c (t.val - 1) (Nat.lt_of_le_of_lt (Nat.sub_le _ _) t.isLt)) := by
  obtain ⟨n, hn⟩ := t
  cases n with
  | zero => exact absurd rfl h
  | succ n => rfl

/-- The region invariant before position `n`: the class's before the first point; afterwards the scratch at the previous
    point's accumulator, the other region's scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt0 V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt0 V c (n - 1) (by omega)) ∗ others0 c) ∗ (∃ r, prngReg c r)) := by
  cases n with
  | zero => exact absurd rfl hz
  | succ n => rfl

/-! ## The proof data -/

/-- Region 0's proof data on core `c`: the arrays as the region finds them; after the body each input's buffer at its
    block, the embedding output at the bias payload of the point's accumulator and the energy output at the row-sum
    payload of it (both consulted at the last point only: before it the two windows are idle); the tracked invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay1 (accAt0 V c t.val t.isLt) (iblk0 V c 4 t)
    | ⟨7, _⟩ => k0_pay2 (accAt0 V c t.val t.isLt) (iblk0 V c 4 t) (iblk0 V c 5 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = k0_pay1 (accAt0 V c t.val t.isLt) (iblk0 V c 4 t) := by dsimp only [dat0]
theorem after0_7 (c : Dev nD) (t : Fin cfg0.N) : (dat0 V c).after 7 t = k0_pay2 (accAt0 V c t.val t.isLt) (iblk0 V c 4 t) (iblk0 V c 5 t) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d

end Cert.KernelIdeal.Hand

end
-- ==== Proof.Ideal.R0RunA.lean ====
/-
  Region 0's body at a grid point of the first tile: the accumulator is reset to the zero payload, then the tile's product is added; the outputs are not touched.
-/
import proofs.«103377_j10213432230335_1_alg».proof.Proof.Ideal.R0Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body goes through the rectangle of the buffer's own extents at offsets `[0, 0]`: both offsets are zero. -/
private theorem hz00 : (![0, 0] : Fin 2 → Nat) = fun _ => 0 := funext fun a => by fin_cases a <;> rfl

set_option maxHeartbeats 4000000 in
theorem run0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x512 .f32) (harg9 : arg9.IsWhole) (hc0 : cond0_0 i) (hc1 : ¬cond0_1 i)
    (x0 x1 : Vec F S512x1024 .f32) (x2 x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k0_pay4 x0 x2 x3 x1 (k0_pay3 (F := F)))) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  -- the body as its memory operations over the named payloads
  rw [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  -- a whole buffer is determined by what is read through it
  obtain rfl := harg1.eq_unread hf0; obtain rfl := harg2.eq_unread hf1; obtain rfl := harg3.eq_unread hf2; obtain rfl := harg4.eq_unread hf3
  -- first tile: the reset branch is taken, the output branch is not
  sl_exec (disch := first | exact hc0 | exact hc1)
  sl_step
  iapply Hk
  -- the four inputs are only read: they come back at their contents
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  -- the accumulator: two whole-buffer stores, the zero payload and then the accumulate payload over it
  iexists _; isplitr; swap; · iexact HS0
  ipureintro
  -- the later store covers every index, so the buffer reads as that store's payload
  rw [View.read_writes_eq_canon _ _ _ (fun y => ⟨_, List.mem_cons_self, View.mem_set_unit_zero hz00 inb_S512x512_S512x512_0_0 y⟩)]
  rw [View.canon_cons_unit_zero (S := S512x512) hz00]
  sl_unfold_words
  -- the accumulator loaded between the two stores is the zero payload just stored
  rw [View.readCov_unit_zero (S := S512x512) _ hz00]
  -- each input load is of the whole buffer: it reads the contents
  simp only [View.readAt_eq_ld, harg1.read_unread, harg2.read_unread, harg3.read_unread, harg4.read_unread,
    View.ld_unit_zero (S := S512x1024) hz00, View.ld_unit_zero (S := S1x1024) hz00]

end Cert.KernelIdeal.Hand

end
-- ==== Proof.Ideal.R0RunB.lean ====
/-
  Region 0's body at a grid point of a middle tile: the tile's product is added to the accumulator the point before left; the outputs are not touched.
-/
import proofs.«103377_j10213432230335_1_alg».proof.Proof.Ideal.R0Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body goes through the rectangle of the buffer's own extents at offsets `[0, 0]`: both offsets are zero. -/
private theorem hz00 : (![0, 0] : Fin 2 → Nat) = fun _ => 0 := funext fun a => by fin_cases a <;> rfl

set_option maxHeartbeats 4000000 in
theorem run0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : ¬cond0_1 i)
    (x0 x1 : Vec F S512x1024 .f32) (x2 x3 : Vec F S1x1024 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (k0_pay4 x0 x2 x3 x1 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  -- the body as its memory operations over the named payloads
  rw [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  -- a whole buffer is determined by what is read through it: the inputs and the accumulator alike
  obtain rfl := harg1.eq_unread hf0; obtain rfl := harg2.eq_unread hf1; obtain rfl := harg3.eq_unread hf2; obtain rfl := harg4.eq_unread hf3
  obtain rfl := harg9.eq_unread hfs0
  -- a middle tile: neither the reset branch nor the output branch is taken
  sl_exec (disch := first | exact hc0 | exact hc1)
  sl_step
  iapply Hk
  -- the four inputs are only read: they come back at their contents
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  -- the accumulator: one whole-buffer store of the accumulate payload over what the point before left
  iexists _; isplitr; swap; · iexact HS0
  ipureintro
  -- the store covers every index, so the buffer reads as its payload
  rw [View.read_writes_eq_canon _ _ _ (fun y => ⟨_, List.mem_cons_self, View.mem_set_unit_zero hz00 inb_S512x512_S512x512_0_0 y⟩)]
  rw [View.canon_unit_zero (S := S512x512) hz00]
  -- each load, the accumulator's included, is of the whole buffer: it reads the contents
  simp only [View.readAt_eq_ld, harg1.read_unread, harg2.read_unread, harg3.read_unread, harg4.read_unread, harg9.read_unread,
    View.ld_unit_zero (S := S512x1024) hz00, View.ld_unit_zero (S := S1x1024) hz00, View.ld_unit_zero (S := S512x512) hz00]

end Cert.KernelIdeal.Hand

end
-- ==== Proof.Ideal.R0RunC.lean ====
/-
  Region 0's body at a grid point of the last tile: the tile's product is added to the accumulator, then the bias is added and the embedding and the energy row sums are stored.
-/
import proofs.«103377_j10213432230335_1_alg».proof.Proof.Ideal.R0Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The unit rectangle's offsets are all zero. -/
private theorem offs_zero : (![0, 0] : Fin 2 → Nat) = fun _ => 0 := funext fun a => by fin_cases a <;> rfl

set_option maxHeartbeats 4000000 in
theorem run0_C (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole) (arg9 : Memref sig .tc .vmem S512x512 .f32) (harg9 : arg9.IsWhole) (hc0 : ¬cond0_0 i) (hc1 : cond0_1 i)
    (x0 x1 : Vec F S512x1024 .f32) (x2 x3 : Vec F S1x1024 .f32) (x4 : Vec F S1x512 .f32) (x5 : Vec F S512x512 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay1 (k0_pay4 x0 x2 x3 x1 xs) x4) ∗ owns (c : Thread nD τ) arg8 fullShare (k0_pay2 (k0_pay4 x0 x2 x3 x1 xs) x4 x5)
            ∗ owns (c : Thread nD τ) arg9 fullShare (k0_pay4 x0 x2 x3 x1 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  rw [cc0__emb_kernel_eq_skeleton]; unfold cc0__emb_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  -- a whole buffer's raw contents are determined by what they read
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg9.eq_unread hf9
  -- the body, the reset skipped and the output branch taken
  sl_exec (disch := first | exact hc0 | exact hc1)
  sl_step
  iapply Hk
  -- the six inputs are as they were
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  -- the embedding: one whole store of the bias payload, over the accumulator read back after its own whole store
  isplitl [H7]
  · iexists _; isplitr; swap; · iexact H7
    ipureintro
    sl_unfold_words
    rw [View.read_writes_eq_canon _ _ _ (fun y => ⟨_, List.mem_singleton_self _, View.mem_set_unit_zero offs_zero inb_S512x512_S512x512_0_0 y⟩),
      View.canon_unit_zero offs_zero, View.readCov_unit_zero (S := S512x512) _ offs_zero]
    simp only [View.readAt_eq_ld, harg1.read_unread, harg2.read_unread, harg3.read_unread, harg4.read_unread, harg5.read_unread, harg6.read_unread, harg9.read_unread, View.ld_unit_zero (S := S512x1024) offs_zero, View.ld_unit_zero (S := S1x1024) offs_zero, View.ld_unit_zero (S := S512x512) offs_zero, View.ld_unit_zero (S := S1x512) offs_zero]
  -- the energy row sums: one whole store of the row-sum payload, over the same accumulator
  isplitl [H8]
  · iexists _; isplitr; swap; · iexact H8
    ipureintro
    sl_unfold_words
    rw [View.read_writes_eq_canon _ _ _ (fun y => ⟨_, List.mem_singleton_self _, View.mem_set_unit_zero offs_zero inb_S512x1_S512x1_0_0 y⟩),
      View.canon_unit_zero offs_zero, View.readCov_unit_zero (S := S512x512) _ offs_zero]
    simp only [View.readAt_eq_ld, harg1.read_unread, harg2.read_unread, harg3.read_unread, harg4.read_unread, harg5.read_unread, harg6.read_unread, harg9.read_unread, View.ld_unit_zero (S := S512x1024) offs_zero, View.ld_unit_zero (S := S1x1024) offs_zero, View.ld_unit_zero (S := S512x512) offs_zero, View.ld_unit_zero (S := S1x512) offs_zero]
  -- the accumulator: one whole store of the accumulate payload over the previous accumulator
  iexists _; isplitr; swap; · iexact H9
  ipureintro
  sl_unfold_words
  rw [View.read_writes_eq_canon _ _ _ (fun y => ⟨_, List.mem_singleton_self _, View.mem_set_unit_zero offs_zero inb_S512x512_S512x512_0_0 y⟩),
    View.canon_unit_zero offs_zero]
  simp only [View.readAt_eq_ld, harg1.read_unread, harg2.read_unread, harg3.read_unread, harg4.read_unread, harg5.read_unread, harg6.read_unread, harg9.read_unread, View.ld_unit_zero (S := S512x1024) offs_zero, View.ld_unit_zero (S := S1x1024) offs_zero, View.ld_unit_zero (S := S512x512) offs_zero, View.ld_unit_zero (S := S1x512) offs_zero]

end Cert.KernelIdeal.Hand

end
-- ==== Proof.Ideal.R0Dat.lean ====
/-
  Region 0's body obligation: at each of the four tiles the body, handed the input blocks, the accumulator as the
  invariant holds it and (at the last tile) the two output buffers, runs and hands back the accumulator at the
  point's value and, at the last tile, the two outputs at their payloads; before the last tile the output windows
  are idle and are handed back untouched.
-/
import proofs.«103377_j10213432230335_1_alg».proof.Proof.Ideal.R0RunA
import proofs.«103377_j10213432230335_1_alg».proof.Proof.Ideal.R0RunB
import proofs.«103377_j10213432230335_1_alg».proof.Proof.Ideal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' posts, one by one -/

/-- An input window is live at every point: the body hands its buffer back at the block it found there. -/
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_5 t, after0_5]

/-- Before the last tile an output window is idle and not written back: its buffer is handed back as found. -/
theorem leaves0_6_idle (c : Dev nD) (t : Fin cfg0.N) (h1 : ¬cond0_1 (grid0.coords t)) :
    (dat0 V c).leavesExact 6 t = iprop(∃ d, owns (c : Thread nD τ) (ms0_6 t) fullShare ((dat0 V c).before 6 t d)) :=
  Dat.leavesExact_idle (dat0 V c) 6 t (idleAt0_6 t h1) (noFlush0_6 t h1)
theorem leaves0_7_idle (c : Dev nD) (t : Fin cfg0.N) (h1 : ¬cond0_1 (grid0.coords t)) :
    (dat0 V c).leavesExact 7 t = iprop(∃ d, owns (c : Thread nD τ) (ms0_7 t) fullShare ((dat0 V c).before 7 t d)) :=
  Dat.leavesExact_idle (dat0 V c) 7 t (idleAt0_7 t h1) (noFlush0_7 t h1)

/-- At the last tile both output windows are live: the embedding at the bias payload of the point's accumulator, the
    energy at the row-sum payload of it. -/
theorem leaves0_6_live (c : Dev nD) (t : Fin cfg0.N) (h1 : cond0_1 (grid0.coords t)) :
    (dat0 V c).leavesExact 6 t = owns (c : Thread nD τ) (ms0_6 t) fullShare (k0_pay1 (accAt0 V c t.val t.isLt) (iblk0 V c 4 t)) := by
  unfold Dat.leavesExact; rw [liveAt0_6 t h1, after0_6]
theorem leaves0_7_live (c : Dev nD) (t : Fin cfg0.N) (h1 : cond0_1 (grid0.coords t)) :
    (dat0 V c).leavesExact 7 t = owns (c : Thread nD τ) (ms0_7 t) fullShare (k0_pay2 (accAt0 V c t.val t.isLt) (iblk0 V c 4 t) (iblk0 V c 5 t)) := by
  unfold Dat.leavesExact; rw [liveAt0_7 t h1, after0_7]

/-! ## The body obligation, at a generic point -/

/-- What the body is called with at point `t`: the invariant before the point, what the core owes, and the eight
    windows' current staging buffers one by one. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What it returns: the invariant after the point, the same debt, and each window's buffer as the body leaves it. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- The body at any point. The six inputs' buffers hold their blocks; the closed forms of the two conditions say which of
    the three cases the point is in. At the first tile the invariant is the class's, so the accumulator is owned at
    some contents and the run resets it; at a later tile the invariant names the accumulator the point before left and
    the run adds the tile's product to it. Either way the accumulator comes back at this point's value (the recursion's
    equation for the point), and the other region's buffers and the generator register pass through. Before the last
    tile the two output windows are kept aside and handed back as found (idle, not written back); at the last tile
    the run takes them at any contents and leaves them at the two payloads of the point's accumulator. The core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  by_cases h0 : t.val = 0
  · -- the first tile: the accumulator is reset, then the tile's product added; the outputs stay idle
    have hc0 : cond0_0 (grid0.coords t) := (hcond0_0 t).mpr h0
    have hc1 : ¬cond0_1 (grid0.coords t) := fun h => by have := (hcond0_1 t).mp h; omega
    rw [leaves0_6_idle V c t hc1, leaves0_7_idle V c t hc1, accAt0_zero V c t h0]
    rw [PhiS_castSucc V c t, PhiS_zero V c _ _ h0, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, H6, H7⟩
    iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond0_0 (grid0.coords t) := fun h => h0 ((hcond0_0 t).mp h)
    rw [accAt0_pos V c t h0, PhiS_castSucc V c t, PhiS_pos V c _ _ h0]
    by_cases h1 : t.val = 3
    · -- the last tile: the product is added, then the bias added and both outputs stored
      have hc1 : cond0_1 (grid0.coords t) := (hcond0_1 t).mpr h1
      rw [leaves0_6_live V c t hc1, leaves0_7_live V c t hc1, accAt0_pos V c t h0]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk0 V c 0 t) (iblk0 V c 1 t) (iblk0 V c 2 t) (iblk0 V c 3 t) (iblk0 V c 4 t) (iblk0 V c 5 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle tile: the product is added to what the point before left; the outputs stay idle
      have hc1 : ¬cond0_1 (grid0.coords t) := fun h => h1 ((hcond0_1 t).mp h)
      rw [leaves0_6_idle V c t hc1, leaves0_7_idle V c t hc1]
      iintro ⟨⟨⟨HS, Hoth⟩, Hg⟩, Ho, ⟨%d0, H0⟩, ⟨%d1, H1⟩, ⟨%d2, H2⟩, ⟨%d3, H3⟩, ⟨%d4, H4⟩, ⟨%d5, H5⟩, H6, H7⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 hc1 (iblk0 V c 0 t) (iblk0 V c 1 t) (iblk0 V c 2 t) (iblk0 V c 3 t) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulator's named contents are
    forgotten, the other region's buffers and the generator register pass through. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- After the last point the invariant gives the class invariant back: the accumulator's contents are forgotten. -/
theorem hout0 (c : Dev nD) : (dat0 V c).Φ (Fin.last cfg0.N) ⊢ Pipeline.ΦA spec0 c :=
  Phi_out0 V c _ (by rw [Fin.val_last]; have : cfg0.N = 4 := N_0; omega)

end Cert.KernelIdeal.Hand

end
-- ==== Proof.Ideal.R1.lean ====
/-
  Region 1 (the negative-energy kernel: for a 32-row tile of the embedding and a 128-row tile of the padded negatives,
  the 32 x 128 tile of sums over the 512 features of the squared positive part of negative minus embedding), grid 16 x 8.
  One control case, no scratch: the body loads its two input blocks whole and stores the payload of them whole.
-/
import proofs.«103377_j10213432230335_1_alg».proof.Proof.Gen.KernelIdeal.Launch
import proofs.«103377_j10213432230335_1_alg».proof.Proof.Gen.KernelIdeal.Skeleton
import proofs.«103377_j10213432230335_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 1 is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1's proof data on core `c`: the arrays as the region finds them; after the body each input's buffer at its
    block and the output's at the energy payload of the two input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-! ## The input windows' staging buffers -/

/-- Input window 0 (the embedding tile) holds its block at every point, fetched there or not: where it is not fetched
    its block index has not moved, the window is uncut and never idle, and the body leaves the block in place. -/
private theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ s, (cfg1.win 0).cut (cfg1.grid.coords s) (dat.after 0 s) = dat.blockOf 0 s := by
    intro s; rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- Input window 1 (the negatives tile), fetched at every point, likewise. -/
private theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ s, (cfg1.win 1).cut (cfg1.grid.coords s) (dat.after 1 s) = dat.blockOf 1 s := by
    intro s; rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

private theorem before1_0 (c : Dev nD) (t : Fin cfg1.N) (d) : (dat1 V c).before 0 t d = iblk1 V c 0 t :=
  before1_0_of V (dat1 V c) (A_eq1 V c 0) (after1_0 V c) t d

private theorem before1_1 (c : Dev nD) (t : Fin cfg1.N) (d) : (dat1 V c).before 1 t d = iblk1 V c 1 t :=
  before1_1_of V (dat1 V c) (A_eq1 V c 1) (after1_1 V c) t d

/-! ## The body's triple -/

/-- The offsets of a whole-buffer rectangle are zero on both axes. -/
private theorem off_zero : (![0, 0] : Fin 2 → Nat) = fun _ => 0 := funext fun a => by fin_cases a <;> rfl

/-- The one store, through the whole-buffer rectangle, covers the output buffer. -/
private theorem cover1_2 (p : Vec F S32x128 .f32) (y : S32x128.Idx) :
    ∃ pc ∈ ([⟨Rect.unit (s := S32x128) ![0, 0] S32x128.size inb_S32x128_S32x128_0_0, p⟩] : List (View.Piece (Elt F) S32x128 .f32)), y ∈ pc.1.set :=
  View.cover_of_tiled [⟨Rect.unit (s := S32x128) ![0, 0] S32x128.size inb_S32x128_S32x128_0_0, p⟩] S32x128.size (by rfl) y

set_option maxHeartbeats 1000000 in
/-- The kernel body on whole staging memrefs: with the two inputs owned at `x0`, `x1` and the output at anything, it runs
    to the continuation with the inputs unchanged and the output at exactly the energy payload of `x0` and `x1`.
    Three whole-buffer loads (the third, of the output, is unused) and one whole-buffer store: what one covering
    store at zero offsets leaves is its payload, and a load at zero offsets reads the contents. -/
private theorem sound_kernel1 (c : Dev nD) (E : Set ℕ) (i : grid1.Coords)
    (arg2 : Memref sig .tc .vmem S32x512 .f32) (harg2 : arg2.IsWhole)
    (arg3 : Memref sig .tc .vmem S128x512 .f32) (harg3 : arg3.IsWhole)
    (arg4 : Memref sig .tc .vmem S32x128 .f32) (harg4 : arg4.IsWhole)
    (x0 : Vec F S32x512 .f32) (x1 : Vec F S128x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay1 x0 x1)) -∗ K ⟨⟩))
      ⊢ wp frame (wpE (defs₀ (F := F)) Variants.none c none) E (cc1__ne_kernel i arg2 harg2 arg3 harg3 arg4 harg4) K := by
  simp only [cc1__ne_kernel_eq_skeleton]; unfold cc1__ne_kernel_skel
  unfold owns
  iintro ⟨⟨%f0, %hf0, H0⟩, ⟨%f1, %hf1, H1⟩, ⟨%d2, %f2, -, H2⟩, Hk⟩
  subst hf0; subst hf1
  sl_exec
  sl_step
  iapply Hk
  -- the inputs, as they were
  isplitl [H0]
  · iexists f0; isplitr
    · ipureintro; rfl
    · iexact H0
  isplitl [H1]
  · iexists f1; isplitr
    · ipureintro; rfl
    · iexact H1
  -- the output: one covering store at zero offsets, its payload over two loads at zero offsets
  iexists _; isplitr
  swap
  · iexact H2
  ipureintro
  rw [View.read_writes_eq_canon _ _ _ (cover1_2 _), View.canon_unit_zero off_zero]
  simp only [View.readAt_eq_ld, View.ld_unit_zero (S := S32x512) off_zero, View.ld_unit_zero (S := S128x512) off_zero]

/-! ## The body obligation, at a generic point -/

/-- What the body is handed at point `t`: the invariant, the core's debts, and each window's current staging buffer. -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both input buffers hold their blocks, so the kernel's triple applies at those blocks; the
    invariant is the same at every point and nothing is owed, so both pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.RunDefs.lean ====
/-
  The unscoped buffers' contents at each boundary between two items of the program, as a fold from the launch memory:
  the three reshapes, region 0 (its arrays at what the pipeline leaves), the pad constant, the pad of the negatives,
  region 1, and the seven closing layout operations.
-/
import proofs.«103377_j10213432230335_1_alg».proof.Proof.Ideal.R0Base
import proofs.«103377_j10213432230335_1_alg».proof.Proof.Ideal.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the three reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the pad constant. -/
abbrev W3 : Dev nD → Valuation τ sig (Elt F) := fun c => StableHlo.after hostOps1 (W2 m c)
/-- After the pad of the negatives (region 1's entry). -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the closing layout operations: what the program returns. -/
abbrev W6 : Dev nD → Valuation τ sig (Elt F) := fun c => StableHlo.after hostOps2 (W5 m c)

end Cert.KernelIdeal.Hand

end
-- ==== Proof.Ideal.Run.lean ====
/-
  The program's run: the launch, then the six items of the program in order — the three reshapes, region 0, the pad
  constant, the pad, region 1, the seven closing layout operations — each entered from the unscoped buffers' contents
  the item before left. Every weakly fair execution terminates, nothing faulting, and the final memory has every
  unscoped buffer at the last boundary's contents. The frame follows: no item writes an argument array (a region
  reads it through an input window, whose array the pipeline leaves as entered, or bypasses it).
-/
import proofs.«103377_j10213432230335_1_alg».proof.Proof.Ideal.R0Dat
import proofs.«103377_j10213432230335_1_alg».proof.Proof.Ideal.R1
import proofs.«103377_j10213432230335_1_alg».proof.Proof.Ideal.RunDefs
import proofs.«103377_j10213432230335_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments reach the end as launched -/

/-- From the last boundary back to region 0's exit: a buffer that the three later host stretches do not write and
    that is no array of region 1. -/
theorem W6_to_W2 (c : Dev nD) (r : Ref sig .tc) (h1 : r ∉ hostOps1_W) (h11 : r ∉ hostOps1_1_W) (h2 : r ∉ hostOps2_W)
    (hr1 : ∀ w, Pipeline.arrRef spec1 w ≠ r) : W6 m c (Proc.devRef .tc r) = W2 m c (Proc.devRef .tc r) :=
  (StableHlo.after_of_writes_sub hostOps2 _ hostOps2_writes h2).trans <| (W5_of_ne m c r hr1).trans <|
    (StableHlo.after_of_writes_sub hostOps1_1 _ hostOps1_1_writes h11).trans (StableHlo.after_of_writes_sub hostOps1 _ hostOps1_writes h1)

/-- A buffer that is no array of region 0 and that the reshapes do not write is at region 0's exit as launched. -/
theorem W2_bypass (c : Dev nD) (r : Ref sig .tc) (h0 : r ∉ hostOps0_W) (hr0 : ∀ w, Pipeline.arrRef spec0 w ≠ r) :
    W2 m c (Proc.devRef .tc r) = m ((c : Thread nD τ).loc r) :=
  (W2_of_ne m c r hr0).trans ((StableHlo.after_of_writes_sub hostOps0 _ hostOps0_writes h0).trans rfl)

/-- An input window's array is at region 0's exit as entered, hence as launched when the reshapes do not write it. -/
theorem W2_input (c : Dev nD) (w : Fin cfg0.W) (hw : (cfg0.win w).isOut = false) (h0 : Pipeline.arrRef spec0 w ∉ hostOps0_W) :
    W2 m c (Proc.devRef .tc (Pipeline.arrRef spec0 w)) = m ((c : Thread nD τ).loc (Pipeline.arrRef spec0 w)) :=
  (W2_arr m c w).trans (((dat0 (V1 m) c).arrAt_in w hw _).trans ((A_eq0 (V1 m) c w).trans
    ((StableHlo.after_of_writes_sub hostOps0 _ hostOps0_writes h0).trans rfl)))

theorem W6_main_arg0 (c : Dev nD) : W6 m c (Proc.devRef .tc main_arg0) = m ((c : Thread nD τ).loc main_arg0) :=
  (W6_to_W2 m c main_arg0 (by decide) (by decide) (by decide) (by decide)).trans (W2_input m c 0 rfl (by decide))
theorem W6_main_arg1 (c : Dev nD) : W6 m c (Proc.devRef .tc main_arg1) = m ((c : Thread nD τ).loc main_arg1) :=
  (W6_to_W2 m c main_arg1 (by decide) (by decide) (by decide) (by decide)).trans (W2_input m c 5 rfl (by decide))
theorem W6_main_arg2 (c : Dev nD) : W6 m c (Proc.devRef .tc main_arg2) = m ((c : Thread nD τ).loc main_arg2) :=
  (W6_to_W2 m c main_arg2 (by decide) (by decide) (by decide) (by decide)).trans (W2_bypass m c main_arg2 (by decide) (by decide))
theorem W6_main_arg3 (c : Dev nD) : W6 m c (Proc.devRef .tc main_arg3) = m ((c : Thread nD τ).loc main_arg3) :=
  (W6_to_W2 m c main_arg3 (by decide) (by decide) (by decide) (by decide)).trans (W2_bypass m c main_arg3 (by decide) (by decide))
theorem W6_main_arg4 (c : Dev nD) : W6 m c (Proc.devRef .tc main_arg4) = m ((c : Thread nD τ).loc main_arg4) :=
  (W6_to_W2 m c main_arg4 (by decide) (by decide) (by decide) (by decide)).trans (W2_bypass m c main_arg4 (by decide) (by decide))
theorem W6_main_arg5 (c : Dev nD) : W6 m c (Proc.devRef .tc main_arg5) = m ((c : Thread nD τ).loc main_arg5) :=
  (W6_to_W2 m c main_arg5 (by decide) (by decide) (by decide) (by decide)).trans (W2_input m c 1 rfl (by decide))
theorem W6_main_arg6 (c : Dev nD) : W6 m c (Proc.devRef .tc main_arg6) = m ((c : Thread nD τ).loc main_arg6) :=
  (W6_to_W2 m c main_arg6 (by decide) (by decide) (by decide) (by decide)).trans (W2_bypass m c main_arg6 (by decide) (by decide))

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at its entry contents, left at its exit
    contents; its arrays split out of the unscoped buffers and put back at what the pipeline leaves; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents; its arrays split out of the unscoped buffers and put back at what the pipeline leaves; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run m ρ)

end Cert.KernelIdeal.Hand

end
-- ==== Proof.Spec.lean ====
/-
  The mathematics both programs compute, over the extended reals, as plain functions of Fin-indexed arrays.

  For a batch of 512 rows and 4096 features: each feature column is centred by its batch mean and scaled by the
  reciprocal square root of its (biased) batch variance plus a small offset, then multiplied by a per-feature scale and
  shifted by a per-feature shift. The embedding of row r at output feature e is the sum over the 4096 features of the
  normalised entry times the weight W e d, plus a bias. The positive energy of row r is the sum over e of the squared
  positive part of (p r e - embedding r e); the negative energy of row r against negative n is the same sum with the
  n-th negative row in place of p. Both results are laid out as one column of 512000 entries, row-major in (r, n): the
  positive energy of r repeated for each of the 1000 negatives, and the negative energies.

  The three float words the programs share (512, the variance offset, zero) are kept as their words read at Ideal: the
  same word stands on both sides and is never evaluated.
-/
import Idealize.ShloMosaic.PureOps.Ideal
import Idealize.ShloMosaic.PureOps.Ideal.Laws
import Idealize.ShloMosaic.Lib.ValueIdx

noncomputable section

namespace Cert.Spec

open Idealize.ShloMosaic

/-- The batch size 512 as the programs write it. -/
abbrev w512 : EReal := Ideal.ofBits .f32 0x44000000#32
/-- The variance offset as the programs write it. -/
abbrev weps : EReal := Ideal.ofBits .f32 0x3727C5AC#32
/-- Zero as the programs write it. -/
abbrev wzero : EReal := Ideal.ofBits .f32 0x00000000#32

section Embedding

-- the normalisation is column by column, so it is stated for any number D of feature columns: the whole batch has
-- 4096, one tile of it 1024
variable {D : ℕ} (vf : Fin 512 → Fin D → EReal) (g be : Fin D → EReal)

/-- The batch mean of feature column d. -/
def mean (d : Fin D) : EReal := Ideal.div (∑ r : Fin 512, vf r d) w512
/-- The centred entry. -/
def cen (r : Fin 512) (d : Fin D) : EReal := vf r d - mean vf d
/-- The biased batch variance of feature column d. -/
def var (d : Fin D) : EReal := Ideal.div (∑ r : Fin 512, cen vf r d * cen vf r d) w512
/-- The reciprocal standard deviation of feature column d. -/
def istd (d : Fin D) : EReal := Ideal.rsqrt (var vf d + weps)
/-- The normalised, scaled and shifted entry. -/
def vfn (r : Fin 512) (d : Fin D) : EReal := cen vf r d * istd vf d * g d + be d

/-- The product of row r of the normalised batch with row e of the weights over the D feature columns. -/
def dotW (W : Fin 512 → Fin D → EReal) (r e : Fin 512) : EReal := ∑ d : Fin D, vfn vf g be r d * W e d

end Embedding

/-- The embedding of row r at output feature e: the product over all 4096 features plus the bias. -/
def emb (vf : Fin 512 → Fin 4096 → EReal) (g be : Fin 4096 → EReal) (W : Fin 512 → Fin 4096 → EReal) (b : Fin 512 → EReal)
    (r e : Fin 512) : EReal := dotW vf g be W r e + b e

/-- The positive energy of row r. -/
def pe (em p : Fin 512 → Fin 512 → EReal) (r : Fin 512) : EReal :=
  ∑ e : Fin 512, max (p r e - em r e) wzero * max (p r e - em r e) wzero

/-- The negative energy of row r against negative n, for any number of negatives. -/
def ne {N : ℕ} (em : Fin 512 → Fin 512 → EReal) (nw : Fin N → Fin 512 → EReal) (r : Fin 512) (n : Fin N) : EReal :=
  ∑ e : Fin 512, max (nw n e - em r e) wzero * max (nw n e - em r e) wzero

/-- The first result: the positive energy of row i / 1000. -/
def out0 (pev : Fin 512 → EReal) (i : Fin 512000) : EReal := pev ⟨i.val / 1000, by have := i.isLt; omega⟩

/-- The second result: the negative energy of row i / 1000 against negative i % 1000. -/
def out1 (nev : Fin 512 → Fin 1000 → EReal) (i : Fin 512000) : EReal :=
  nev ⟨i.val / 1000, by have := i.isLt; omega⟩ ⟨i.val % 1000, Nat.mod_lt _ (by decide)⟩

end Cert.Spec

end
-- ==== Proof.Ideal.ValDefs.lean ====
/-
  The launch memory's argument arrays as Fin-indexed functions of extended reals, and the specification's embedding
  of them: what every value statement about the idealized kernel is stated over.
-/
import proofs.«103377_j10213432230335_1_alg».proof.Proof.Ideal.RunDefs
import proofs.«103377_j10213432230335_1_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- The batch: 512 rows of 4096 features. -/
def aVf : Fin 512 → Fin 4096 → EReal := fun r d => (m ((c.tc : Thread nD τ).loc main_arg0) : FVec Ideal S512x4096 .f32) (ix2 r d)
/-- The positives: 512 rows of 512 features. -/
def aP : Fin 512 → Fin 512 → EReal := fun r e => (m ((c.tc : Thread nD τ).loc main_arg1) : FVec Ideal S512x512 .f32) (ix2 r e)
/-- The negatives: 1000 rows of 512 features. -/
def aNw : Fin 1000 → Fin 512 → EReal := fun n e => (m ((c.tc : Thread nD τ).loc main_arg2) : FVec Ideal S1000x512 .f32) (ix2 n e)
/-- The per-feature scale. -/
def aG : Fin 4096 → EReal := fun d => (m ((c.tc : Thread nD τ).loc main_arg3) : FVec Ideal S4096 .f32) (ix1 d)
/-- The per-feature shift. -/
def aBe : Fin 4096 → EReal := fun d => (m ((c.tc : Thread nD τ).loc main_arg4) : FVec Ideal S4096 .f32) (ix1 d)
/-- The weights: 512 output features by 4096 input features. -/
def aW : Fin 512 → Fin 4096 → EReal := fun e d => (m ((c.tc : Thread nD τ).loc main_arg5) : FVec Ideal S512x4096 .f32) (ix2 e d)
/-- The bias. -/
def aB : Fin 512 → EReal := fun e => (m ((c.tc : Thread nD τ).loc main_arg6) : FVec Ideal S512 .f32) (ix1 e)

/-- The specification's embedding of the launch arguments. -/
def embM : Fin 512 → Fin 512 → EReal := Cert.Spec.emb (aVf m c) (aG m c) (aBe m c) (aW m c) (aB m c)

end Cert.KernelIdeal.Val

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.Ideal.PayVal.lean ====
/-
  The kernels' payloads read at an index, at the ideal instance, over variables of the literal vector types:
  the zero payload, the accumulate payload of one 1024-column tile (the accumulator's entry plus the product of the
  tile's normalised row with the weight tile's row), the bias payload, the positive-energy row sums, and the
  negative-energy tile.
-/
import proofs.«103377_j10213432230335_1_alg».proof.Proof.Gen.KernelIdeal.Skeleton
import proofs.«103377_j10213432230335_1_alg».proof.Proof.Spec
import proofs.«103377_j10213432230335_1_alg».proof.Proof.LibPlainDot
import Idealize.ShloMosaic.Lib.Pipeline.Value
import Idealize.ShloMosaic.Lib.ValueLayout

set_option maxRecDepth 16384

noncomputable section

namespace Cert.KernelIdeal.Val

open Cert.KernelIdeal Cert.KernelIdeal.Gen
open Idealize.ShloMosaic Idealize.ShloMosaic.ValueIdx
open Cert.Spec

/-- The zero payload is the zero word everywhere. -/
theorem pay3_apply (r e : Fin 512) : (k0_pay3 (F := Ideal) : FVec Ideal S512x512 .f32) (ix2 r e) = wzero := by
  unfold k0_pay3
  show shapeCast S512x512 (broadcast S512x512 (Scalar.ofBits (F := Ideal) .f32 0x00000000#32)) shapeCasts_S512x512_S512x512 (ix2 r e) = wzero
  rw [shapeCast_self]
  rfl

/-! ## Layout reads at the literal shapes -/

/-- A vector of 1024 entries recast as one row: (z, j) reads entry j. -/
private theorem rowCast_apply {α : Type} (x : S1024.Idx → α) (z : Fin 1) (j : Fin 1024) :
    shapeCast S1x1024 x shapeCasts_S1024_S1x1024 (ix2 z j) = x (ix1 j) :=
  shapeCast_apply x shapeCasts_S1024_S1x1024 (ix2 z j) (ix1 j) (by
    rw [Shape.rowMajor_val_one, Shape.rowMajor_val_two]
    have hz : z.val = 0 := by have := z.isLt; omega
    show j.val = z.val * 1024 + j.val
    rw [hz, Nat.zero_mul, Nat.zero_add])

/-- A vector of 512 entries recast as one column: (r, z) reads entry r. -/
private theorem colCast_apply {α : Type} (x : S512.Idx → α) (r : Fin 512) (z : Fin 1) :
    shapeCast S512x1 x shapeCasts_S512_S512x1 (ix2 r z) = x (ix1 r) :=
  shapeCast_apply x shapeCasts_S512_S512x1 (ix2 r z) (ix1 r) (by
    rw [Shape.rowMajor_val_one, Shape.rowMajor_val_two]
    have hz : z.val = 0 := by have := z.isLt; omega
    show r.val = r.val * 1 + z.val
    rw [hz, Nat.mul_one, Nat.add_zero])

/-! ## Sums along one axis -/

/-- The sum down the 512 rows of a 512 x 1024 block, read at column j. -/
private theorem colSum_apply (v : FVec Ideal S512x1024 .f32) (hφ : FKind.Formats .f32)
    (hacc : (0x00000000#32 : BitVec 32) = 0x00000000#32) (j : Fin 1024) :
    multiReduction (F := Ideal) .add [0] S1024 v 0x00000000#32 reduces_S512x1024_S1024 hφ hacc (ix1 j)
      = ∑ r : Fin 512, v (ix2 r j) := by
  refine (Ideal.multiReduction_add_single v 0x00000000#32 reduces_S512x1024_S1024 hφ hacc (ix1 j)).trans ?_
  refine Finset.sum_congr rfl fun r _ => congrArg v ?_
  funext c
  refine Fin.ext ?_
  match c with
  | ⟨0, _⟩ => rfl
  | ⟨1, _⟩ => rfl

/-- The sum along the 512 columns of a 512 x 512 block, read at row r. -/
private theorem rowSum_apply (v : FVec Ideal S512x512 .f32) (hφ : FKind.Formats .f32)
    (hacc : (0x00000000#32 : BitVec 32) = 0x00000000#32) (r : Fin 512) :
    multiReduction (F := Ideal) .add [1] S512 v 0x00000000#32 reduces_S512x512_S512 hφ hacc (ix1 r)
      = ∑ e : Fin 512, v (ix2 r e) := by
  refine (Ideal.multiReduction_add_single v 0x00000000#32 reduces_S512x512_S512 hφ hacc (ix1 r)).trans ?_
  refine Finset.sum_congr rfl fun e _ => congrArg v ?_
  funext c
  refine Fin.ext ?_
  match c with
  | ⟨0, _⟩ => rfl
  | ⟨1, _⟩ => rfl

/-! ## The tile product: both operands contracted along their columns -/

-- The operand indices at output index i and contraction index q, axis by axis: the left operand is read at
-- (i's row, q), the right operand at (i's column, q).
private theorem lhs_tile_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
private theorem lhs_tile_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
private theorem rhs_tile_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
private theorem rhs_tile_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The tile product into the zero accumulator, read at (r, e): the sum over the 1024 columns j of
    lhs (r, j) * rhs (e, j). The contraction index is carried to Fin 1024; the operand indices are (r, j) and (e, j)
    coordinate by coordinate. -/
private theorem tileDot_apply {φ₁ φ₂ : FTy} (lhs : FVec Ideal S512x1024 φ₁) (rhs : FVec Ideal S512x1024 φ₂) (r e : Fin 512) :
    matmul dot_S512x1024_S512x1024_S512x512_1_1_0_0_n_n none lhs rhs (constant (F := Ideal) S512x512 .f32 0x00000000#32) (ix2 r e)
      = ∑ j : Fin 1024, lhs (ix2 r j) * rhs (ix2 e j) := by
  show FloatOps.matmul dot_S512x1024_S512x1024_S512x512_1_1_0_0_n_n none lhs rhs (constant S512x512 .f32 0x00000000#32) (ix2 r e) = _
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r e) ((ValueIdx.contrEquiv1 dot_S512x1024_S512x1024_S512x512_1_1_0_0_n_n 1024 rfl rfl).symm k) = ix2 r k :=
    funext fun a => Fin.ext (by
      match a with
      | ⟨0, _⟩ => exact lhs_tile_0 _ _
      | ⟨1, _⟩ => exact (lhs_tile_1 _ _).trans hk)
  have er : dot_S512x1024_S512x1024_S512x512_1_1_0_0_n_n.rhsIdx (ix2 r e) ((ValueIdx.contrEquiv1 dot_S512x1024_S512x1024_S512x512_1_1_0_0_n_n 1024 rfl rfl).symm k) = ix2 e k :=
    funext fun a => Fin.ext (by
      match a with
      | ⟨0, _⟩ => exact rhs_tile_0 _ _
      | ⟨1, _⟩ => exact (rhs_tile_1 _ _).trans hk)
  rw [el, er]

/-! ## The normalisation of one 512 x 1024 tile -/

/-- The column-mean row: the sum down the rows, recast as one row, over a broadcast word, read at (z, j). -/
private theorem meanRow_apply (x : FVec Ideal S512x1024 .f32) (w : BitVec 32) (hφ : FKind.Formats .f32)
    (hacc : (0x00000000#32 : BitVec 32) = 0x00000000#32) (z : Fin 1) (j : Fin 1024) :
    divf (shapeCast S1x1024 (multiReduction (F := Ideal) .add [0] S1024 x 0x00000000#32 reduces_S512x1024_S1024 hφ hacc) shapeCasts_S1024_S1x1024)
        (broadcast S1x1024 (FloatOps.ofBits (F := Ideal) .f32 w)) (ix2 z j)
      = Ideal.div (∑ r : Fin 512, x (ix2 r j)) (Ideal.ofBits .f32 w) := by
  show Ideal.div (shapeCast S1x1024 (multiReduction (F := Ideal) .add [0] S1024 x 0x00000000#32 reduces_S512x1024_S1024 hφ hacc) shapeCasts_S1024_S1x1024 (ix2 z j)) (Ideal.ofBits .f32 w) = _
  rw [rowCast_apply, colSum_apply]

/-- The centred block as the kernel computes it: the tile minus its column-mean row broadcast down the rows. -/
private abbrev cenBlk (x : FVec Ideal S512x1024 .f32) (hφ : FKind.Formats .f32)
    (hacc : (0x00000000#32 : BitVec 32) = 0x00000000#32) : FVec Ideal S512x1024 .f32 :=
  subf x (broadcastTo S512x1024 (divf (shapeCast S1x1024 (multiReduction (F := Ideal) .add [0] S1024 x 0x00000000#32 reduces_S512x1024_S1024 hφ hacc) shapeCasts_S1024_S1x1024)
    (broadcast S1x1024 (FloatOps.ofBits (F := Ideal) .f32 0x44000000#32))) broadcasts_S1x1024_S512x1024)

/-- The centred block at (r, j) is the centred entry. -/
private theorem cenBlk_apply (x : FVec Ideal S512x1024 .f32) (hφ : FKind.Formats .f32)
    (hacc : (0x00000000#32 : BitVec 32) = 0x00000000#32) (r : Fin 512) (j : Fin 1024) :
    cenBlk x hφ hacc (ix2 r j) = cen (fun r j => x (ix2 r j)) r j := by
  show x (ix2 r j) - broadcastTo S512x1024 (divf (shapeCast S1x1024 (multiReduction (F := Ideal) .add [0] S1024 x 0x00000000#32 reduces_S512x1024_S1024 hφ hacc) shapeCasts_S1024_S1x1024)
    (broadcast S1x1024 (FloatOps.ofBits (F := Ideal) .f32 0x44000000#32))) broadcasts_S1x1024_S512x1024 (ix2 r j) = _
  rw [Cert.LibPlainDot.bcastRow_apply, meanRow_apply]
  rfl

/-- The reciprocal-deviation row: the column mean of the squared centred block, plus the offset word, under the
    reciprocal square root, read at (z, j). -/
private theorem istdRow_apply (x : FVec Ideal S512x1024 .f32) (hφ hφ' : FKind.Formats .f32)
    (hacc hacc' : (0x00000000#32 : BitVec 32) = 0x00000000#32) (z : Fin 1) (j : Fin 1024) :
    rsqrt (addf (divf (shapeCast S1x1024 (multiReduction (F := Ideal) .add [0] S1024 (mulf (cenBlk x hφ hacc) (cenBlk x hφ hacc)) 0x00000000#32 reduces_S512x1024_S1024 hφ' hacc') shapeCasts_S1024_S1x1024)
        (broadcast S1x1024 (FloatOps.ofBits (F := Ideal) .f32 0x44000000#32)))
        (broadcast S1x1024 (FloatOps.ofBits (F := Ideal) .f32 0x3727C5AC#32))) (ix2 z j)
      = istd (fun r j => x (ix2 r j)) j := by
  show Ideal.rsqrt (divf (shapeCast S1x1024 (multiReduction (F := Ideal) .add [0] S1024 (mulf (cenBlk x hφ hacc) (cenBlk x hφ hacc)) 0x00000000#32 reduces_S512x1024_S1024 hφ' hacc') shapeCasts_S1024_S1x1024)
        (broadcast S1x1024 (FloatOps.ofBits (F := Ideal) .f32 0x44000000#32)) (ix2 z j) + weps) = _
  rw [meanRow_apply]
  have hs : ∑ r : Fin 512, mulf (cenBlk x hφ hacc) (cenBlk x hφ hacc) (ix2 r j)
      = ∑ r : Fin 512, cen (fun r j => x (ix2 r j)) r j * cen (fun r j => x (ix2 r j)) r j :=
    Finset.sum_congr rfl fun r _ => by
      show cenBlk x hφ hacc (ix2 r j) * cenBlk x hφ hacc (ix2 r j) = _
      rw [cenBlk_apply]
  rw [hs]
  rfl

/-- Centred block times a row, times a row, plus a row, narrowed: the rows are read at their column. -/
private theorem affine_apply (c : FVec Ideal S512x1024 .f32) (s g b : FVec Ideal S1x1024 .f32) (r : Fin 512) (j : Fin 1024) :
    truncf .bf16 (addf (mulf (mulf c (broadcastTo S512x1024 s broadcasts_S1x1024_S512x1024)) (broadcastTo S512x1024 g broadcasts_S1x1024_S512x1024))
        (broadcastTo S512x1024 b broadcasts_S1x1024_S512x1024)) bitsLt_bf16_f32 (ix2 r j)
      = c (ix2 r j) * s (ix2 0 j) * g (ix2 0 j) + b (ix2 0 j) := by
  show c (ix2 r j) * broadcastTo S512x1024 s broadcasts_S1x1024_S512x1024 (ix2 r j) * broadcastTo S512x1024 g broadcasts_S1x1024_S512x1024 (ix2 r j)
      + broadcastTo S512x1024 b broadcasts_S1x1024_S512x1024 (ix2 r j) = _
  rw [Cert.LibPlainDot.bcastRow_apply, Cert.LibPlainDot.bcastRow_apply, Cert.LibPlainDot.bcastRow_apply]
  rfl

/-- The accumulate payload at (r, e): the accumulator's entry plus, over the tile's 1024 columns, the tile's normalised
    entry (batch tile x0, scale row x2, shift row x3) times the weight tile's entry (x1, row e). -/
theorem pay4_apply (x0 x1 : FVec Ideal S512x1024 .f32) (x2 x3 : FVec Ideal S1x1024 .f32) (a : FVec Ideal S512x512 .f32) (r e : Fin 512) :
    (k0_pay4 (F := Ideal) x0 x2 x3 x1 a : FVec Ideal S512x512 .f32) (ix2 r e)
      = a (ix2 r e) + dotW (D := 1024) (fun r j => x0 (ix2 r j)) (fun j => x2 (ix2 0 j)) (fun j => x3 (ix2 0 j)) (fun e j => x1 (ix2 e j)) r e := by
  unfold k0_pay4
  simp only [shapeCast_self]
  refine congrArg (a (ix2 r e) + ·) ?_
  refine (tileDot_apply _ _ r e).trans ?_
  refine Finset.sum_congr rfl fun j _ => congrArg (· * x1 (ix2 e j)) ?_
  refine (affine_apply _ _ _ _ r j).trans ?_
  show _ = cen (fun r j => x0 (ix2 r j)) r j * istd (fun r j => x0 (ix2 r j)) j * x2 (ix2 0 j) + x3 (ix2 0 j)
  exact congrArg₂ (fun u v => u * v * x2 (ix2 0 j) + x3 (ix2 0 j)) (cenBlk_apply x0 _ _ r j) (istdRow_apply x0 _ _ _ _ 0 j)

/-- The bias payload at (r, e): the accumulator's entry plus the bias row's entry e. -/
theorem pay1_apply (a : FVec Ideal S512x512 .f32) (x4 : FVec Ideal S1x512 .f32) (r e : Fin 512) :
    (k0_pay1 (F := Ideal) a x4 : FVec Ideal S512x512 .f32) (ix2 r e) = a (ix2 r e) + x4 (ix2 0 e) := by
  unfold k0_pay1
  show a (ix2 r e) + broadcastTo S512x512 (shapeCast S1x512 x4 shapeCasts_S1x512_S1x512) broadcasts_S1x512_S512x512 (ix2 r e) = _
  rw [shapeCast_self]
  exact congrArg (a (ix2 r e) + ·) (Cert.LibPlainDot.bcastRow_apply x4 broadcasts_S1x512_S512x512 r e)

/-- The energy payload at row r: the positive energy of the positives x5 against the embedding (accumulator plus bias). -/
theorem pay2_apply (a : FVec Ideal S512x512 .f32) (x4 : FVec Ideal S1x512 .f32) (x5 : FVec Ideal S512x512 .f32) (r : Fin 512) :
    (k0_pay2 (F := Ideal) a x4 x5 : FVec Ideal S512x1 .f32) (ix2 r 0)
      = pe (fun r e => a (ix2 r e) + x4 (ix2 0 e)) (fun r e => x5 (ix2 r e)) r := by
  unfold k0_pay2
  refine (colCast_apply _ r 0).trans ?_
  refine (rowSum_apply _ _ _ r).trans ?_
  refine Finset.sum_congr rfl fun e _ => ?_
  show max (x5 (ix2 r e) - k0_pay1 (F := Ideal) a x4 (ix2 r e)) wzero * max (x5 (ix2 r e) - k0_pay1 (F := Ideal) a x4 (ix2 r e)) wzero = _
  rw [pay1_apply]

/-! ## The negative-energy tile: rank-three reads -/

/-- A 128 x 512 block recast with a leading unit axis: (z, q, e) reads (q, e). -/
private theorem leadCast_apply {α : Type} (x : S128x512.Idx → α) (z : Fin 1) (q : Fin 128) (e : Fin 512) :
    shapeCast S1x128x512 x shapeCasts_S128x512_S1x128x512 (ix3 z q e) = x (ix2 q e) :=
  shapeCast_apply x shapeCasts_S128x512_S1x128x512 (ix3 z q e) (ix2 q e) (by
    rw [Shape.rowMajor_val_two, Shape.rowMajor_val_three]
    have hz : z.val = 0 := by have := z.isLt; omega
    show q.val * 512 + e.val = (z.val * 128 + q.val) * 512 + e.val
    rw [hz, Nat.zero_mul, Nat.zero_add])

/-- A block with a leading unit axis broadcast over 32 leading positions: (p, q, e) reads (0, q, e). -/
private theorem bcastLead_apply {α : Type} (x : S1x128x512.Idx → α) (p : Fin 32) (q : Fin 128) (e : Fin 512) :
    broadcastTo S32x128x512 x broadcasts_S1x128x512_S32x128x512 (ix3 p q e) = x (ix3 0 q e) :=
  broadcastTo_apply x broadcasts_S1x128x512_S32x128x512 (ix3 p q e) (ix3 0 q e) (fun c => match c with
    | ⟨0, _⟩ => rfl
    | ⟨1, _⟩ => rfl
    | ⟨2, _⟩ => rfl)

/-- A block with a middle unit axis broadcast over 128 middle positions: (p, q, e) reads (p, 0, e). -/
private theorem bcastMid_apply {α : Type} (x : S32x1x512.Idx → α) (p : Fin 32) (q : Fin 128) (e : Fin 512) :
    broadcastTo S32x128x512 x broadcasts_S32x1x512_S32x128x512 (ix3 p q e) = x (ix3 p 0 e) :=
  broadcastTo_apply x broadcasts_S32x1x512_S32x128x512 (ix3 p q e) (ix3 p 0 e) (fun c => match c with
    | ⟨0, _⟩ => rfl
    | ⟨1, _⟩ => rfl
    | ⟨2, _⟩ => rfl)

/-- The sum along the last axis of a 32 x 128 x 512 block, read at (p, q). -/
private theorem lastSum_apply (v : FVec Ideal S32x128x512 .f32) (hφ : FKind.Formats .f32)
    (hacc : (0x00000000#32 : BitVec 32) = 0x00000000#32) (p : Fin 32) (q : Fin 128) :
    multiReduction (F := Ideal) .add [2] S32x128 v 0x00000000#32 reduces_S32x128x512_S32x128 hφ hacc (ix2 p q)
      = ∑ e : Fin 512, v (ix3 p q e) := by
  refine (Ideal.multiReduction_add_single v 0x00000000#32 reduces_S32x128x512_S32x128 hφ hacc (ix2 p q)).trans ?_
  refine Finset.sum_congr rfl fun e _ => congrArg v ?_
  funext c
  refine Fin.ext ?_
  match c with
  | ⟨0, _⟩ => rfl
  | ⟨1, _⟩ => rfl
  | ⟨2, _⟩ => rfl

/-- The negative-energy tile at (p, q): the energy of the 32-row embedding tile's row p against the 128-row
    negatives tile's row q. -/
theorem k1_pay1_apply (x0 : FVec Ideal S32x512 .f32) (x1 : FVec Ideal S128x512 .f32) (p : Fin 32) (q : Fin 128) :
    (k1_pay1 (F := Ideal) x0 x1 : FVec Ideal S32x128 .f32) (ix2 p q)
      = ∑ e : Fin 512, max (x1 (ix2 q e) - x0 (ix2 p e)) wzero * max (x1 (ix2 q e) - x0 (ix2 p e)) wzero := by
  unfold k1_pay1
  simp only [shapeCast_self]
  refine (lastSum_apply _ _ _ p q).trans ?_
  refine Finset.sum_congr rfl fun e _ => ?_
  have hn : broadcastTo S32x128x512 (shapeCast S1x128x512 x1 shapeCasts_S128x512_S1x128x512) broadcasts_S1x128x512_S32x128x512 (ix3 p q e) = x1 (ix2 q e) :=
    (bcastLead_apply _ p q e).trans (leadCast_apply x1 0 q e)
  have hm : broadcastTo S32x128x512 (shapeCast S32x1x512 x0 shapeCasts_S32x512_S32x1x512) broadcasts_S32x1x512_S32x128x512 (ix3 p q e) = x0 (ix2 p e) :=
    (bcastMid_apply _ p q e).trans (Cert.LibPlainDot.shapeCast_midUnit_apply x0 shapeCasts_S32x512_S32x1x512 p 0 e)
  show max (broadcastTo S32x128x512 (shapeCast S1x128x512 x1 shapeCasts_S128x512_S1x128x512) broadcasts_S1x128x512_S32x128x512 (ix3 p q e)
        - broadcastTo S32x128x512 (shapeCast S32x1x512 x0 shapeCasts_S32x512_S32x1x512) broadcasts_S32x1x512_S32x128x512 (ix3 p q e)) wzero
      * max (broadcastTo S32x128x512 (shapeCast S1x128x512 x1 shapeCasts_S128x512_S1x128x512) broadcasts_S1x128x512_S32x128x512 (ix3 p q e)
        - broadcastTo S32x128x512 (shapeCast S32x1x512 x0 shapeCasts_S32x512_S32x1x512) broadcasts_S32x1x512_S32x128x512 (ix3 p q e)) wzero = _
  rw [hn, hm]

end Cert.KernelIdeal.Val

end
-- ==== Proof.Ideal.R0Value.lean ====
/-
  What region 0 leaves in its two output arrays, at the ideal instance, in terms of the launch arguments: the embedding
  array holds the specification's embedding, the energy array the specification's positive energy.

  The accumulator after the four tiles is zero plus the four tiles' partial products in order, and the sum over the
  4096 features splits into those four sums of 1024 (addition on the extended reals is commutative and associative);
  each tile's block of an array is the array at column 1024 t + j; the scale, shift and bias rows are the argument
  vectors recast to one row; each output window has one block, written back at the last tile, which covers its array.
-/
import proofs.«103377_j10213432230335_1_alg».proof.Proof.Ideal.ValDefs
import proofs.«103377_j10213432230335_1_alg».proof.Proof.Ideal.PayVal

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

open Cert.Spec

variable (m : (ℓ : Loc nD τ sig) → Buf (Elt Ideal) ℓ) (c : Dev nD)

/-! ## The sum over 4096 features as four sums of 1024 -/

/-- A sum over 4096 columns is the sum over the four tiles of the sums over each tile's 1024 columns, column
    1024 t + j being column j of tile t. -/
private theorem sum_tiles (f : Fin 4096 → EReal) (h : ∀ (t : Fin 4) (j : Fin 1024), 1024 * t.val + j.val < 4096) :
    ∑ d : Fin 4096, f d = ∑ t : Fin 4, ∑ j : Fin 1024, f ⟨1024 * t.val + j.val, h t j⟩ := by
  rw [← Equiv.sum_comp (finProdFinEquiv (m := 4) (n := 1024)) f, Fintype.sum_prod_type]
  refine Finset.sum_congr rfl fun t _ => Finset.sum_congr rfl fun j _ => congrArg f (Fin.ext ?_)
  show j.val + 1024 * t.val = 1024 * t.val + j.val
  exact Nat.add_comm _ _

/-- Zero plus the four tiles' sums, added in order, is the sum over all 4096 columns. -/
private theorem fold_tiles (f : Fin 4096 → EReal) (h : ∀ (k : ℕ), k < 4 → ∀ j : Fin 1024, 1024 * k + j.val < 4096) :
    ((((0 : EReal) + ∑ j : Fin 1024, f ⟨1024 * 0 + j.val, h 0 (by decide) j⟩) + ∑ j : Fin 1024, f ⟨1024 * 1 + j.val, h 1 (by decide) j⟩)
        + ∑ j : Fin 1024, f ⟨1024 * 2 + j.val, h 2 (by decide) j⟩) + ∑ j : Fin 1024, f ⟨1024 * 3 + j.val, h 3 (by decide) j⟩
      = ∑ d : Fin 4096, f d := by
  rw [sum_tiles f (fun t j => h t.val t.isLt j), Fin.sum_univ_four, zero_add]
  rfl

/-! ## The normalisation is column by column -/

/-- The normalised entry of a batch restricted to some of its columns is the whole batch's at that column. -/
private theorem vfn_cols {D D' : ℕ} (vf : Fin 512 → Fin D → EReal) (g be : Fin D → EReal) (κ : Fin D' → Fin D) (r : Fin 512) (j : Fin D') :
    vfn (fun r j => vf r (κ j)) (fun j => g (κ j)) (fun j => be (κ j)) r j = vfn vf g be r (κ j) := rfl

/-! ## The blocks of the six input windows, read off their arrays -/

section Blocks

variable (V : (c : Dev nD) → (b : Ref sig .tc) → Buf (Elt Ideal) ((c : Thread nD τ).loc b))

private theorem N4 : cfg0.N = 4 := N_0

private theorem col_lt (t : Fin cfg0.N) (j : Fin 1024) : 1024 * t.val + j.val < 4096 := by
  have := N4; have := t.isLt; have := j.isLt; omega

/-- The windows' block indices at each of the four points: the four tiled windows sit at block (0, t), -/
private theorem idx_tiled : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

/-- and the bias, the positives and the two outputs at block (0, 0). -/
private theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The batch tile at point t: entry (r, j) is the batch at (r, 1024 t + j). -/
private theorem blk0_apply (t : Fin cfg0.N) (r : Fin 512) (j : Fin 1024) :
    (iblk0 V c 0 t : FVec Ideal S512x1024 .f32) (ix2 r j)
      = (V c main_arg0 : FVec Ideal S512x4096 .f32) (ix2 r ⟨1024 * t.val + j.val, col_lt t j⟩) := by
  unfold iblk0
  rw [View.read_apply]
  show (V c main_arg0 : FVec Ideal S512x4096 .f32) _ = _
  refine congrArg _ (funext fun a => Fin.ext ?_)
  obtain ⟨⟨h0, h1⟩, -⟩ := idx_tiled t
  match a with
  | ⟨0, _⟩ => show win0_0.index t (0 : Fin 2) * 512 + 1 * r.val = r.val; rw [h0]; omega
  | ⟨1, _⟩ => show win0_0.index t (1 : Fin 2) * 1024 + 1 * j.val = 1024 * t.val + j.val; rw [h1]; omega

/-- The weight tile at point t: entry (e, j) is the weights at (e, 1024 t + j). -/
private theorem blk1_apply (t : Fin cfg0.N) (e : Fin 512) (j : Fin 1024) :
    (iblk0 V c 1 t : FVec Ideal S512x1024 .f32) (ix2 e j)
      = (V c main_arg5 : FVec Ideal S512x4096 .f32) (ix2 e ⟨1024 * t.val + j.val, col_lt t j⟩) := by
  unfold iblk0
  rw [View.read_apply]
  show (V c main_arg5 : FVec Ideal S512x4096 .f32) _ = _
  refine congrArg _ (funext fun a => Fin.ext ?_)
  obtain ⟨-, ⟨h0, h1⟩, -⟩ := idx_tiled t
  match a with
  | ⟨0, _⟩ => show win0_1.index t (0 : Fin 2) * 512 + 1 * e.val = e.val; rw [h0]; omega
  | ⟨1, _⟩ => show win0_1.index t (1 : Fin 2) * 1024 + 1 * j.val = 1024 * t.val + j.val; rw [h1]; omega

/-- The scale row's tile at point t: entry j is the row at column 1024 t + j. -/
private theorem blk2_apply (t : Fin cfg0.N) (j : Fin 1024) :
    (iblk0 V c 2 t : FVec Ideal S1x1024 .f32) (ix2 0 j)
      = (V c main_v0 : FVec Ideal S1x4096 .f32) (ix2 0 ⟨1024 * t.val + j.val, col_lt t j⟩) := by
  unfold iblk0
  rw [View.read_apply]
  show (V c main_v0 : FVec Ideal S1x4096 .f32) _ = _
  refine congrArg _ (funext fun a => Fin.ext ?_)
  obtain ⟨-, -, ⟨h0, h1⟩, -⟩ := idx_tiled t
  match a with
  | ⟨0, _⟩ => show win0_2.index t (0 : Fin 2) * 1 + 1 * 0 = 0; rw [h0]
  | ⟨1, _⟩ => show win0_2.index t (1 : Fin 2) * 1024 + 1 * j.val = 1024 * t.val + j.val; rw [h1]; omega

/-- The shift row's tile at point t: entry j is the row at column 1024 t + j. -/
private theorem blk3_apply (t : Fin cfg0.N) (j : Fin 1024) :
    (iblk0 V c 3 t : FVec Ideal S1x1024 .f32) (ix2 0 j)
      = (V c main_v1 : FVec Ideal S1x4096 .f32) (ix2 0 ⟨1024 * t.val + j.val, col_lt t j⟩) := by
  unfold iblk0
  rw [View.read_apply]
  show (V c main_v1 : FVec Ideal S1x4096 .f32) _ = _
  refine congrArg _ (funext fun a => Fin.ext ?_)
  obtain ⟨-, -, -, ⟨h0, h1⟩⟩ := idx_tiled t
  match a with
  | ⟨0, _⟩ => show win0_3.index t (0 : Fin 2) * 1 + 1 * 0 = 0; rw [h0]
  | ⟨1, _⟩ => show win0_3.index t (1 : Fin 2) * 1024 + 1 * j.val = 1024 * t.val + j.val; rw [h1]; omega

/-- The bias row's one block is the row. -/
private theorem blk4_apply (t : Fin cfg0.N) (e : Fin 512) :
    (iblk0 V c 4 t : FVec Ideal S1x512 .f32) (ix2 0 e) = (V c main_v2 : FVec Ideal S1x512 .f32) (ix2 0 e) := by
  unfold iblk0
  rw [View.read_apply]
  show (V c main_v2 : FVec Ideal S1x512 .f32) _ = _
  refine congrArg _ (funext fun a => Fin.ext ?_)
  obtain ⟨⟨h0, h1⟩, -⟩ := idx_whole t
  match a with
  | ⟨0, _⟩ => show win0_4.index t (0 : Fin 2) * 1 + 1 * 0 = 0; rw [h0]
  | ⟨1, _⟩ => show win0_4.index t (1 : Fin 2) * 512 + 1 * e.val = e.val; rw [h1]; omega

/-- The positives' one block is the array. -/
private theorem blk5_apply (t : Fin cfg0.N) (r e : Fin 512) :
    (iblk0 V c 5 t : FVec Ideal S512x512 .f32) (ix2 r e) = (V c main_arg1 : FVec Ideal S512x512 .f32) (ix2 r e) := by
  unfold iblk0
  rw [View.read_apply]
  show (V c main_arg1 : FVec Ideal S512x512 .f32) _ = _
  refine congrArg _ (funext fun a => Fin.ext ?_)
  obtain ⟨-, ⟨h0, h1⟩, -⟩ := idx_whole t
  match a with
  | ⟨0, _⟩ => show win0_5.index t (0 : Fin 2) * 512 + 1 * r.val = r.val; rw [h0]; omega
  | ⟨1, _⟩ => show win0_5.index t (1 : Fin 2) * 512 + 1 * e.val = e.val; rw [h1]; omega

end Blocks

/-! ## The arrays as region 0 finds them, in terms of the launch arguments -/

section Entry

open Idealize.ShloMosaic.Tactic

/-- The batch, the weights and the positives pass the three recasts unchanged. -/
private theorem V1_vf (r : Fin 512) (d : Fin 4096) : (V1 m c main_arg0 : FVec Ideal S512x4096 .f32) (ix2 r d) = aVf m c r d := by
  have e : (V1 m c main_arg0 : FVec Ideal S512x4096 .f32) = m ((c.tc : Thread nD τ).loc main_arg0) := by
    show StableHlo.after hostOps0 _ (Proc.devRef .tc main_arg0) = _
    after_results
  rw [e]; rfl

private theorem V1_W (e' : Fin 512) (d : Fin 4096) : (V1 m c main_arg5 : FVec Ideal S512x4096 .f32) (ix2 e' d) = aW m c e' d := by
  have e : (V1 m c main_arg5 : FVec Ideal S512x4096 .f32) = m ((c.tc : Thread nD τ).loc main_arg5) := by
    show StableHlo.after hostOps0 _ (Proc.devRef .tc main_arg5) = _
    after_results
  rw [e]; rfl

private theorem V1_P (r e' : Fin 512) : (V1 m c main_arg1 : FVec Ideal S512x512 .f32) (ix2 r e') = aP m c r e' := by
  have e : (V1 m c main_arg1 : FVec Ideal S512x512 .f32) = m ((c.tc : Thread nD τ).loc main_arg1) := by
    show StableHlo.after hostOps0 _ (Proc.devRef .tc main_arg1) = _
    after_results
  rw [e]; rfl

/-- The scale row is the scale vector recast to one row. -/
private theorem V1_g (d : Fin 4096) : (V1 m c main_v0 : FVec Ideal S1x4096 .f32) (ix2 0 d) = aG m c d := by
  have e : (V1 m c main_v0 : FVec Ideal S1x4096 .f32)
      = shapeCast S1x4096 (m ((c.tc : Thread nD τ).loc main_arg3) : FVec Ideal S4096 .f32) shapeCasts_S4096_S1x4096 := by
    show StableHlo.after hostOps0 _ (Proc.devRef .tc main_v0) = _
    after_results
    rfl
  rw [e]
  exact shapeCast_a_1a_apply _ _ 0 d

/-- The shift row is the shift vector recast to one row. -/
private theorem V1_be (d : Fin 4096) : (V1 m c main_v1 : FVec Ideal S1x4096 .f32) (ix2 0 d) = aBe m c d := by
  have e : (V1 m c main_v1 : FVec Ideal S1x4096 .f32)
      = shapeCast S1x4096 (m ((c.tc : Thread nD τ).loc main_arg4) : FVec Ideal S4096 .f32) shapeCasts_S4096_S1x4096 := by
    show StableHlo.after hostOps0 _ (Proc.devRef .tc main_v1) = _
    after_results
    rfl
  rw [e]
  exact shapeCast_a_1a_apply _ _ 0 d

/-- The bias row is the bias vector recast to one row. -/
private theorem V1_b (e' : Fin 512) : (V1 m c main_v2 : FVec Ideal S1x512 .f32) (ix2 0 e') = aB m c e' := by
  have e : (V1 m c main_v2 : FVec Ideal S1x512 .f32)
      = shapeCast S1x512 (m ((c.tc : Thread nD τ).loc main_arg6) : FVec Ideal S512 .f32) shapeCasts_S512_S1x512 := by
    show StableHlo.after hostOps0 _ (Proc.devRef .tc main_v2) = _
    after_results
    rfl
  rw [e]
  exact shapeCast_a_1a_apply _ _ 0 e'

end Entry

/-! ## The accumulator after the four tiles -/

section Acc

variable (V : (c : Dev nD) → (b : Ref sig .tc) → Buf (Elt Ideal) ((c : Thread nD τ).loc b))

/-- The partial product of tile t at (r, e): the tile's normalised row r against the weight tile's row e. -/
private def tileDot (t : Fin cfg0.N) (r e : Fin 512) : EReal :=
  dotW (D := 1024) (fun r j => (iblk0 V c 0 t : FVec Ideal S512x1024 .f32) (ix2 r j)) (fun j => (iblk0 V c 2 t : FVec Ideal S1x1024 .f32) (ix2 0 j))
    (fun j => (iblk0 V c 3 t : FVec Ideal S1x1024 .f32) (ix2 0 j)) (fun e j => (iblk0 V c 1 t : FVec Ideal S512x1024 .f32) (ix2 e j)) r e

/-- After the first tile the accumulator holds the zero word plus the tile's partial product. -/
private theorem acc_first (h : 0 < cfg0.N) (r e : Fin 512) :
    (accAt0 V c 0 h : FVec Ideal S512x512 .f32) (ix2 r e) = wzero + tileDot c V ⟨0, h⟩ r e := by
  show (k0_pay4 (F := Ideal) _ _ _ _ (k0_pay3 (F := Ideal)) : FVec Ideal S512x512 .f32) (ix2 r e) = _
  refine (pay4_apply _ _ _ _ _ r e).trans ?_
  rw [pay3_apply]
  rfl

/-- After a later tile it holds what it held plus that tile's partial product. -/
private theorem acc_next (n : ℕ) (h : n + 1 < cfg0.N) (r e : Fin 512) :
    (accAt0 V c (n + 1) h : FVec Ideal S512x512 .f32) (ix2 r e)
      = (accAt0 V c n (Nat.lt_of_succ_lt h) : FVec Ideal S512x512 .f32) (ix2 r e) + tileDot c V ⟨n + 1, h⟩ r e := by
  show (k0_pay4 (F := Ideal) _ _ _ _ (accAt0 V c n (Nat.lt_of_succ_lt h)) : FVec Ideal S512x512 .f32) (ix2 r e) = _
  exact pay4_apply _ _ _ _ _ r e

private theorem lt3 : 3 < cfg0.N := by rw [N4]; decide

/-- After the four tiles: the zero word plus the four partial products in order. -/
private theorem acc_last (r e : Fin 512) :
    (accAt0 V c 3 lt3 : FVec Ideal S512x512 .f32) (ix2 r e)
      = (((wzero + tileDot c V t0_0 r e) + tileDot c V t0_1 r e) + tileDot c V t0_2 r e) + tileDot c V t0_3 r e := by
  rw [acc_next c V 2 lt3, acc_next c V 1 (Nat.lt_of_succ_lt lt3), acc_next c V 0 (Nat.lt_of_succ_lt (Nat.lt_of_succ_lt lt3)), acc_first c V]
  rfl

end Acc

/-- Tile t's partial product over the arrays region 0 finds: the whole batch's normalised entries at the tile's columns
    against the weights at those columns. -/
private theorem tileDot_entry (t : Fin cfg0.N) (r e : Fin 512) :
    tileDot c (V1 m) t r e
      = ∑ j : Fin 1024, vfn (aVf m c) (aG m c) (aBe m c) r ⟨1024 * t.val + j.val, col_lt t j⟩ * aW m c e ⟨1024 * t.val + j.val, col_lt t j⟩ := by
  unfold tileDot
  have e0 : (fun (r : Fin 512) (j : Fin 1024) => (iblk0 (V1 m) c 0 t : FVec Ideal S512x1024 .f32) (ix2 r j))
      = fun r j => aVf m c r ⟨1024 * t.val + j.val, col_lt t j⟩ :=
    funext fun r => funext fun j => (blk0_apply c (V1 m) t r j).trans (V1_vf m c r _)
  have e1 : (fun (e : Fin 512) (j : Fin 1024) => (iblk0 (V1 m) c 1 t : FVec Ideal S512x1024 .f32) (ix2 e j))
      = fun e j => aW m c e ⟨1024 * t.val + j.val, col_lt t j⟩ :=
    funext fun e => funext fun j => (blk1_apply c (V1 m) t e j).trans (V1_W m c e _)
  have e2 : (fun (j : Fin 1024) => (iblk0 (V1 m) c 2 t : FVec Ideal S1x1024 .f32) (ix2 0 j))
      = fun j => aG m c ⟨1024 * t.val + j.val, col_lt t j⟩ :=
    funext fun j => (blk2_apply c (V1 m) t j).trans (V1_g m c _)
  have e3 : (fun (j : Fin 1024) => (iblk0 (V1 m) c 3 t : FVec Ideal S1x1024 .f32) (ix2 0 j))
      = fun j => aBe m c ⟨1024 * t.val + j.val, col_lt t j⟩ :=
    funext fun j => (blk3_apply c (V1 m) t j).trans (V1_be m c _)
  rw [e0, e1, e2, e3]
  unfold dotW
  exact Finset.sum_congr rfl fun j _ => congrArg (· * _) (vfn_cols (aVf m c) (aG m c) (aBe m c) (fun j => ⟨1024 * t.val + j.val, col_lt t j⟩) r j)

/-- The accumulator after the four tiles is the whole product over the 4096 features. -/
private theorem acc_dot (r e : Fin 512) :
    (accAt0 (V1 m) c 3 lt3 : FVec Ideal S512x512 .f32) (ix2 r e) = dotW (aVf m c) (aG m c) (aBe m c) (aW m c) r e := by
  rw [acc_last, tileDot_entry, tileDot_entry, tileDot_entry, tileDot_entry, show wzero = (0 : EReal) from Ideal.ofBits_zero_f32]
  exact fold_tiles (fun d => vfn (aVf m c) (aG m c) (aBe m c) r d * aW m c e d) (fun k hk j => by have := j.isLt; omega)

/-! ## The two output arrays at region 0's exit -/

section Final

variable (V : (c : Dev nD) → (b : Ref sig .tc) → Buf (Elt Ideal) ((c : Thread nD τ).loc b))

/-- The only point that writes an output window back is the last. -/
private theorem last_of_flush (t : Fin cfg0.N) (h : t.val % 4 = 3) : t = t0_3 := by
  have := N4; have := t.isLt; exact Fin.ext (show t.val = 3 by omega)

/-- What the last point writes back to the embedding array: its one block at offset zero is the whole staging buffer,
    which holds the bias payload of the final accumulator. -/
private theorem flushed6 (t : Fin cfg0.N) (hf : (cfg0.win 6).flush t = true) :
    (dat0 V c).flushed 6 t
      = ((cfg0.win 6).blk t).view.read (Elt Ideal) (k0_pay1 (accAt0 V c 3 lt3) (iblk0 V c 4 t0_3)) := by
  obtain rfl := last_of_flush t ((flush0_6 t).mp hf)
  show (cfg0.win 6).cut (grid0.coords t0_3) ((dat0 V c).after 6 t0_3) = _
  rw [after0_6]
  have hz : (fun a => win0_6.index t0_3 a * main_v3_0.ty.shape.size a) = fun _ => 0 :=
    funext fun a => by
      obtain ⟨-, -, ⟨h0, h1⟩, -⟩ := idx_whole t0_3
      match a with
      | ⟨0, _⟩ => show win0_6.index t0_3 (0 : Fin 2) * 512 = 0; rw [h0]
      | ⟨1, _⟩ => show win0_6.index t0_3 (1 : Fin 2) * 512 = 0; rw [h1]
  exact (Memref.read_access_unit_zero (Elt Ideal) main_v3_0 hz (fun a => by rw [congrFun hz a]; simp) _).symm

/-- The same for the energy array: the row-sum payload of the final accumulator. -/
private theorem flushed7 (t : Fin cfg0.N) (hf : (cfg0.win 7).flush t = true) :
    (dat0 V c).flushed 7 t
      = ((cfg0.win 7).blk t).view.read (Elt Ideal) (k0_pay2 (accAt0 V c 3 lt3) (iblk0 V c 4 t0_3) (iblk0 V c 5 t0_3)) := by
  obtain rfl := last_of_flush t ((flush0_7 t).mp hf)
  show (cfg0.win 7).cut (grid0.coords t0_3) ((dat0 V c).after 7 t0_3) = _
  rw [after0_7]
  have hz : (fun a => win0_7.index t0_3 a * main_v3_1.ty.shape.size a) = fun _ => 0 :=
    funext fun a => by
      obtain ⟨-, -, -, ⟨h0, h1⟩⟩ := idx_whole t0_3
      match a with
      | ⟨0, _⟩ => show win0_7.index t0_3 (0 : Fin 2) * 512 = 0; rw [h0]
      | ⟨1, _⟩ => show win0_7.index t0_3 (1 : Fin 2) * 1 = 0; rw [h1]
  exact (Memref.read_access_unit_zero (Elt Ideal) main_v3_1 hz (fun a => by rw [congrFun hz a]; simp) _).symm

/-- The embedding array after the run: the last point's block, at block index zero and of the array's own size, holds
    every index. -/
private theorem final6 : (dat0 V c).arrAt 6 cfg0.N = k0_pay1 (accAt0 V c 3 lt3) (iblk0 V c 4 t0_3) :=
  (dat0 V c).arrAt_eq_of_cover 6 _ (flushed6 c V) fun i => ⟨t0_3, (flush0_6 t0_3).mpr rfl, by
    show i ∈ ((View.whole main_v3_0).slice (win0_6.rect t0_3)).set
    rw [View.set_slice_whole, Rect.mem_set_unit]
    obtain ⟨-, -, ⟨h0, h1⟩, -⟩ := idx_whole t0_3
    intro a
    match a with
    | ⟨0, _⟩ =>
      show win0_6.index t0_3 (0 : Fin 2) * 512 ≤ (i 0).val ∧ (i 0).val < win0_6.index t0_3 (0 : Fin 2) * 512 + 512
      rw [h0]; have : (i 0).val < 512 := (i 0).isLt; omega
    | ⟨1, _⟩ =>
      show win0_6.index t0_3 (1 : Fin 2) * 512 ≤ (i 1).val ∧ (i 1).val < win0_6.index t0_3 (1 : Fin 2) * 512 + 512
      rw [h1]; have : (i 1).val < 512 := (i 1).isLt; omega⟩

/-- The energy array after the run, likewise. -/
private theorem final7 : (dat0 V c).arrAt 7 cfg0.N = k0_pay2 (accAt0 V c 3 lt3) (iblk0 V c 4 t0_3) (iblk0 V c 5 t0_3) :=
  (dat0 V c).arrAt_eq_of_cover 7 _ (flushed7 c V) fun i => ⟨t0_3, (flush0_7 t0_3).mpr rfl, by
    show i ∈ ((View.whole main_v3_1).slice (win0_7.rect t0_3)).set
    rw [View.set_slice_whole, Rect.mem_set_unit]
    obtain ⟨-, -, -, ⟨h0, h1⟩⟩ := idx_whole t0_3
    intro a
    match a with
    | ⟨0, _⟩ =>
      show win0_7.index t0_3 (0 : Fin 2) * 512 ≤ (i 0).val ∧ (i 0).val < win0_7.index t0_3 (0 : Fin 2) * 512 + 512
      rw [h0]; have : (i 0).val < 512 := (i 0).isLt; omega
    | ⟨1, _⟩ =>
      show win0_7.index t0_3 (1 : Fin 2) * 1 ≤ (i 1).val ∧ (i 1).val < win0_7.index t0_3 (1 : Fin 2) * 1 + 1
      rw [h1]; have : (i 1).val < 1 := (i 1).isLt; omega⟩

end Final

/-- The final accumulator plus the bias row is the specification's embedding. -/
private theorem acc_bias (r e : Fin 512) :
    (accAt0 (V1 m) c 3 lt3 : FVec Ideal S512x512 .f32) (ix2 r e) + (iblk0 (V1 m) c 4 t0_3 : FVec Ideal S1x512 .f32) (ix2 0 e) = embM m c r e := by
  rw [acc_dot, blk4_apply, V1_b]
  rfl

/-- At region 0's exit the embedding array holds the specification's embedding of the launch arguments. -/
theorem emb_final (r e : Fin 512) :
    (V2 m c main_v3_0 : FVec Ideal S512x512 .f32) (ix2 r e) = embM m c r e := by
  have hA : (V2 m c main_v3_0 : FVec Ideal S512x512 .f32) = k0_pay1 (accAt0 (V1 m) c 3 lt3) (iblk0 (V1 m) c 4 t0_3) :=
    (hF0 m c 6).symm.trans (final6 c (V1 m))
  rw [hA]
  exact (pay1_apply _ _ r e).trans (acc_bias m c r e)

/-- At region 0's exit the energy array holds the specification's positive energy. -/
theorem pe_final (r : Fin 512) :
    (V2 m c main_v3_1 : FVec Ideal S512x1 .f32) (ix2 r 0) = pe (embM m c) (aP m c) r := by
  have hA : (V2 m c main_v3_1 : FVec Ideal S512x1 .f32)
      = k0_pay2 (accAt0 (V1 m) c 3 lt3) (iblk0 (V1 m) c 4 t0_3) (iblk0 (V1 m) c 5 t0_3) :=
    (hF0 m c 7).symm.trans (final7 c (V1 m))
  rw [hA]
  refine (pay2_apply _ _ _ r).trans ?_
  have e0 : (fun (r e : Fin 512) => (accAt0 (V1 m) c 3 lt3 : FVec Ideal S512x512 .f32) (ix2 r e) + (iblk0 (V1 m) c 4 t0_3 : FVec Ideal S1x512 .f32) (ix2 0 e))
      = embM m c := funext fun r => funext fun e => acc_bias m c r e
  have e1 : (fun (r e : Fin 512) => (iblk0 (V1 m) c 5 t0_3 : FVec Ideal S512x512 .f32) (ix2 r e)) = aP m c :=
    funext fun r => funext fun e => (blk5_apply c (V1 m) t0_3 r e).trans (V1_P m c r e)
  rw [e0, e1]

end Cert.KernelIdeal.Val

end
-- ==== Proof.Ideal.R1Value.lean ====
/-
  What region 1 leaves in its output array, at the ideal instance: at (r, n) with n below 1000, the specification's
  negative energy of row r against negative n. The region reads the embedding array as region 0 left it (the two
  host operations between the regions write other buffers) and the negatives padded to 1024 rows, whose first 1000
  rows are the argument's; the 16 x 8 blocks of 32 x 128 tile the 512 x 1024 output, block (i, j) holding the payload
  of embedding rows 32 i .. and padded negatives rows 128 j ...
-/
import proofs.«103377_j10213432230335_1_alg».proof.Proof.Ideal.R0Value
import Idealize.ShloMosaic.Lib.KernelVsHost

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

open Cert.Spec

/-! ## The index maps over the grid -/

/-- At grid point t = (t / 8, t % 8): the embedding window sits at row tile t / 8, the negatives window at row tile
    t % 8, both at column tile 0, and the output window at tile (t / 8, t % 8). Decided once over the 128 points. -/
private theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

section Blocks

-- the buffers' contents when the region is entered, as variables
variable (V : (c : Dev nD) → (b : Ref sig .tc) → Buf (Elt Ideal) ((c : Thread nD τ).loc b)) (c : Dev nD)

/-! ## The input blocks as rows of their arrays -/

/-- Row p of the embedding block at point t is row 32 (t / 8) + p of the embedding array. -/
private theorem iblk1_0_apply (t : Fin cfg1.N) (p : Fin 32) (e : Fin 512) (k : Fin 512) (hk : k.val = 32 * (t.val / 8) + p.val) :
    (iblk1 V c 0 t : FVec Ideal S32x512 .f32) (ix2 p e) = (V c main_v3_0 : FVec Ideal S512x512 .f32) (ix2 k e) := by
  obtain ⟨e0, e1, -⟩ := idx_facts1 t
  unfold iblk1
  rw [View.read_apply]
  show (V c main_v3_0 : FVec Ideal S512x512 .f32) _ = _
  congr 1
  funext a
  apply Fin.ext
  match a with
  | ⟨0, _⟩ => show win1_0.index t (0 : Fin 2) * 32 + 1 * p.val = k.val; rw [e0, hk]; omega
  | ⟨1, _⟩ => show win1_0.index t (1 : Fin 2) * 512 + 1 * e.val = e.val; rw [e1]; omega

/-- Row q of the negatives block at point t is row 128 (t % 8) + q of the padded negatives array. -/
private theorem iblk1_1_apply (t : Fin cfg1.N) (q : Fin 128) (e : Fin 512) (k : Fin 1024) (hk : k.val = 128 * (t.val % 8) + q.val) :
    (iblk1 V c 1 t : FVec Ideal S128x512 .f32) (ix2 q e) = (V c main_v4 : FVec Ideal S1024x512 .f32) (ix2 k e) := by
  obtain ⟨-, -, e0, e1, -⟩ := idx_facts1 t
  unfold iblk1
  rw [View.read_apply]
  show (V c main_v4 : FVec Ideal S1024x512 .f32) _ = _
  congr 1
  funext a
  apply Fin.ext
  match a with
  | ⟨0, _⟩ => show win1_1.index t (0 : Fin 2) * 128 + 1 * q.val = k.val; rw [e0, hk]; omega
  | ⟨1, _⟩ => show win1_1.index t (1 : Fin 2) * 512 + 1 * e.val = e.val; rw [e1]; omega

/-! ## The output array as one function of the two input arrays -/

/-- The energy of row i 0 of a 512-row array E against row i 1 of a 1024-row array Nn: the sum over the 512 features of
    the squared positive part of the difference. -/
private def G1 (E : FVec Ideal S512x512 .f32) (Nn : FVec Ideal S1024x512 .f32) : FVec Ideal S512x1024 .f32 :=
  fun i => ∑ e : Fin 512, max (Nn (ix2 ⟨(i 1).val, idx2_lt1 i⟩ e) - E (ix2 ⟨(i 0).val, idx2_lt0 i⟩ e)) wzero
      * max (Nn (ix2 ⟨(i 1).val, idx2_lt1 i⟩ e) - E (ix2 ⟨(i 0).val, idx2_lt0 i⟩ e)) wzero

/-- What point t writes back is block t of that function of the arrays as the region finds them: the payload at (p, q)
    is the energy of the embedding block's row p against the negatives block's row q, those are rows 32 (t / 8) + p and
    128 (t % 8) + q of the arrays, and the output block's entry (p, q) sits at exactly that row and column. -/
private theorem flushed1_eq (t : Fin cfg1.N) :
    (dat1 V c).flushed 2 t = ((cfg1.win 2).blk t).view.read (Elt Ideal) (G1 (V c main_v3_0) (V c main_v4)) := by
  show (cfg1.win 2).cut (grid1.coords t) ((dat1 V c).after 2 t) = _
  rw [after1_2]
  funext j
  obtain ⟨p, q, rfl⟩ : ∃ (p : Fin 32) (q : Fin 128), j = (ix2 p q : S32x128.Idx) := ⟨j 0, j 1, eq_ix2 (n0 := 32) (n1 := 128) j⟩
  rw [View.read_apply]
  show (k1_pay1 (F := Ideal) (iblk1 V c 0 t) (iblk1 V c 1 t) : FVec Ideal S32x128 .f32) (ix2 p q) = _
  rw [k1_pay1_apply]
  obtain ⟨-, -, -, -, e4, e5⟩ := idx_facts1 t
  have h0 : ((((cfg1.win 2).blk t).view.emb (ix2 p q)) 0).val = 32 * (t.val / 8) + p.val := by
    show win1_2.index t (0 : Fin 2) * 32 + 1 * p.val = _; rw [e4]; omega
  have h1 : ((((cfg1.win 2).blk t).view.emb (ix2 p q)) 1).val = 128 * (t.val % 8) + q.val := by
    show win1_2.index t (1 : Fin 2) * 128 + 1 * q.val = _; rw [e5]; omega
  show _ = G1 (V c main_v3_0) (V c main_v4) (((cfg1.win 2).blk t).view.emb (ix2 p q))
  generalize (((cfg1.win 2).blk t).view.emb (ix2 p q) : S512x1024.Idx) = i at h0 h1 ⊢
  unfold G1
  refine Finset.sum_congr rfl fun e _ => ?_
  rw [iblk1_0_apply V c t p e ⟨(i 0).val, idx2_lt0 i⟩ h0, iblk1_1_apply V c t q e ⟨(i 1).val, idx2_lt1 i⟩ h1]

/-- An index of the output array is in point t's block iff each coordinate is in the block's range on its axis. -/
private theorem mem_blk1 (t : Fin cfg1.N) (i : S512x1024.Idx) :
    i ∈ ((cfg1.win 2).blk t).view.set ↔ ∀ a : Fin 2, win1_2.index t a * S32x128.size a ≤ (i a).val ∧ (i a).val < win1_2.index t a * S32x128.size a + S32x128.size a := by
  show i ∈ ((View.whole main_v5).slice (win1_2.rect t)).set ↔ _
  rw [View.set_slice_whole, Rect.mem_set_unit]
  exact Iff.rfl

/-- The blocks tile the array: index (a, b) is in the block of the point (a / 32) * 8 + b / 128, which is written back. -/
private theorem cover1 (i : S512x1024.Idx) : ∃ t : Fin cfg1.N, (cfg1.win 2).flush t = true ∧ i ∈ ((cfg1.win 2).blk t).view.set := by
  have hi0 : (i 0).val < 512 := idx2_lt0 i
  have hi1 : (i 1).val < 1024 := idx2_lt1 i
  have hN : cfg1.N = 128 := N_1
  obtain ⟨t, ht⟩ : ∃ t : Fin cfg1.N, t.val = (i 0).val / 32 * 8 + (i 1).val / 128 :=
    ⟨⟨(i 0).val / 32 * 8 + (i 1).val / 128, by rw [hN]; omega⟩, rfl⟩
  refine ⟨t, flush1_2 t, ?_⟩
  rw [mem_blk1]
  obtain ⟨-, -, -, -, e4, e5⟩ := idx_facts1 t
  intro a
  match a with
  | ⟨0, _⟩ =>
    show win1_2.index t (0 : Fin 2) * 32 ≤ (i 0).val ∧ (i 0).val < win1_2.index t (0 : Fin 2) * 32 + 32
    rw [e4, ht]; omega
  | ⟨1, _⟩ =>
    show win1_2.index t (1 : Fin 2) * 128 ≤ (i 1).val ∧ (i 1).val < win1_2.index t (1 : Fin 2) * 128 + 128
    rw [e5, ht]; omega

/-- So the output array after the region is that function of the two input arrays as the region finds them. -/
private theorem final1 : (dat1 V c).arrAt 2 cfg1.N = G1 (V c main_v3_0) (V c main_v4) :=
  (dat1 V c).arrAt_eq_of_cover 2 (G1 (V c main_v3_0) (V c main_v4)) (fun t _ => flushed1_eq V c t) (cover1)

end Blocks

variable (m : (ℓ : Loc nD τ sig) → Buf (Elt Ideal) ℓ) (c : Dev nD)

/-! ## The arrays as the region finds them -/

/-- Neither host operation between the regions writes the embedding array: the region finds it as region 0 left it. -/
private theorem V4_emb1 : V4 m c main_v3_0 = V2 m c main_v3_0 := by
  show StableHlo.after hostOps1_1 (StableHlo.after hostOps1 (W2 m c)) (Proc.devRef .tc main_v3_0) = _
  after_results

/-- The negatives argument is no array of region 0 and no reshape before it writes it: it is the launch memory's. -/
private theorem W2_arg2 : W2 m c (Proc.devRef .tc main_arg2) = m ((c.tc : Thread nD τ).loc main_arg2) := by
  refine (W2_of_ne m c main_arg2 (by decide)).trans ?_
  show StableHlo.after hostOps0 (W0 m c) (Proc.devRef .tc main_arg2) = _
  after_results

/-- The padded negatives array is the negatives argument padded by 24 rows of the pad constant after its 1000 rows. -/
private theorem V4_neg1 : (V4 m c main_v4 : FVec Ideal S1024x512 .f32)
    = pad S1024x512 ![0, 0] ![24, 0] ![0, 0] (m ((c.tc : Thread nD τ).loc main_arg2) : FVec Ideal S1000x512 .f32)
        (constant (F := Ideal) S_ .f32 0xC9742400#32) pads_S1000x512_S1024x512_0240_000 h_S_ := by
  show StableHlo.after hostOps1_1 (StableHlo.after hostOps1 (W2 m c)) (Proc.devRef .tc main_v4) = _
  after_results
  exact congrArg (fun x : FVec Ideal S1000x512 .f32 => pad S1024x512 ![0, 0] ![24, 0] ![0, 0] x
    (constant (F := Ideal) S_ .f32 0xC9742400#32) pads_S1000x512_S1024x512_0240_000 h_S_) (W2_arg2 m c)

/-- There is no padding before the rows or on the columns, so row n below 1000 of the padded array is row n of the
    negatives argument. -/
private theorem V4_neg1_apply (n : Fin 1000) (e : Fin 512) (k : Fin 1024) (hk : k.val = n.val) :
    (V4 m c main_v4 : FVec Ideal S1024x512 .f32) (ix2 k e) = aNw m c n e := by
  refine (congrFun (V4_neg1 m c) (ix2 k e)).trans ?_
  refine pad_apply_of_inside _ _ _ _ _ pads_S1000x512_S1024x512_0240_000 h_S_ (ix2 k e) (ix2 n e) fun a => ?_
  match a with
  | ⟨0, _⟩ => show k.val = 0 + n.val * (0 + 1); omega
  | ⟨1, _⟩ => show e.val = 0 + e.val * (0 + 1); omega

/-- At region 1's exit the output array at (r, n), n < 1000, is the negative energy of row r against negative n. -/
theorem ne_final (r : Fin 512) (n : Fin 1000) :
    (V5 m c main_v5 : FVec Ideal S512x1024 .f32) (ix2 r ⟨n.val, by have := n.isLt; omega⟩) = ne (embM m c) (aNw m c) r n := by
  -- the array after the region is the energy function of the two arrays as the region finds them
  have hV5 : V5 m c main_v5 = G1 (V4 m c main_v3_0) (V4 m c main_v4) := (W5_arr m c 2).trans (final1 (V4 m) c)
  refine Eq.trans (b := G1 (V4 m c main_v3_0) (V4 m c main_v4) (ix2 r ⟨n.val, by have := n.isLt; omega⟩)) (congrFun hV5 _) ?_
  unfold G1 ne
  refine Finset.sum_congr rfl fun e _ => ?_
  -- feature by feature: the padded negatives' row n is the argument's, the embedding array holds the embedding
  have hN : (V4 m c main_v4 : FVec Ideal S1024x512 .f32) (ix2 ⟨n.val, by have := n.isLt; omega⟩ e) = aNw m c n e :=
    V4_neg1_apply m c n e _ rfl
  have hE : (V4 m c main_v3_0 : FVec Ideal S512x512 .f32) (ix2 r e) = embM m c r e :=
    (congrFun (V4_emb1 m c) _).trans (emb_final m c r e)
  rw [← hN, ← hE]

end Cert.KernelIdeal.Val

end
-- ==== Proof.Ideal.Tail.lean ====
/-
  The two results the idealized kernel's program returns, in terms of the launch arguments: the closing layout
  operations recast the energy column to a vector, repeat each entry 1000 times and flatten (entry i is row i / 1000),
  and slice the padded negative energies to 1000 columns and flatten (entry i is row i / 1000, column i % 1000); both
  are then given a trailing unit axis.
-/
import proofs.«103377_j10213432230335_1_alg».proof.Proof.Ideal.R1Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

open Cert.Spec

variable (m : (ℓ : Loc nD τ sig) → Buf (Elt Ideal) ℓ) (c : Dev nD)

/-! ## The closing operations as terms over region exits -/

/-- The first result's buffer is the energy column recast to a vector, repeated along a new second axis of 1000,
    flattened, and given a trailing unit axis. -/
private theorem v9_eq :
    (W6 m c (Proc.devRef .tc main_v9) : FVec Ideal S512000x1 .f32)
      = broadcastInDim S512000x1 ![0] bcast_S512000_S512000x1_0
          (shapeCast S512000
            (broadcastInDim S512x1000 ![0] bcast_S512_S512x1000_0
              (shapeCast S512 (W5 m c (Proc.devRef .tc main_v3_1) : FVec Ideal S512x1 .f32) shapeCasts_S512x1_S512))
            shapeCasts_S512x1000_S512000) := by
  show StableHlo.after hostOps2 (W5 m c) (Proc.devRef .tc main_v9) = _
  after_results
  rfl

/-- The second result's buffer is the padded negative energies cut to their first 1000 columns, flattened, and given a
    trailing unit axis. -/
private theorem v12_eq :
    (W6 m c (Proc.devRef .tc main_v12) : FVec Ideal S512000x1 .f32)
      = broadcastInDim S512000x1 ![0] bcast_S512000_S512000x1_0
          (shapeCast S512000
            (extractStridedSlice S512x1000 ![0, 0] (W5 m c (Proc.devRef .tc main_v5) : FVec Ideal S512x1024 .f32)
              slices_S512x1024_S512x1000_0_0)
            shapeCasts_S512x1000_S512000) := by
  show StableHlo.after hostOps2 (W5 m c) (Proc.devRef .tc main_v12) = _
  after_results
  rfl

/-! ## The layout operations read at an index -/

section Reads

variable {α : Type}

/-- A vector of 512000 given a trailing unit axis reads, at (i, 0), its entry i. -/
private theorem addUnit_apply (y : S512000.Idx → α) (i : Fin 512000) :
    broadcastInDim S512000x1 ![0] bcast_S512000_S512000x1_0 y (ix2 i 0) = y (ix1 i) :=
  broadcastInDim_apply _ bcast_S512000_S512000x1_0 y (ix2 i 0) (ix1 i) (fun a => match a with
    | ⟨0, _⟩ => by show i.val = if (512000 : Nat) = 1 then 0 else i.val; rw [if_neg (by decide)])

/-- A 512 x 1000 array flattened row-major reads, at i, its entry (i / 1000, i % 1000). -/
private theorem flat_apply (y : S512x1000.Idx → α) (i : Fin 512000) (hq : i.val / 1000 < 512) (hr : i.val % 1000 < 1000) :
    shapeCast S512000 y shapeCasts_S512x1000_S512000 (ix1 i) = y (ix2 ⟨i.val / 1000, hq⟩ ⟨i.val % 1000, hr⟩) :=
  shapeCast_apply y shapeCasts_S512x1000_S512000 (ix1 i) (ix2 ⟨i.val / 1000, hq⟩ ⟨i.val % 1000, hr⟩) (by
    rewrite [Shape.rowMajor_val_two, Shape.rowMajor_val_one]
    show i.val / 1000 * 1000 + i.val % 1000 = i.val
    omega)

/-- A vector of 512 repeated along a new second axis of 1000 reads, at (a, b), its entry a. -/
private theorem repeat_apply (y : S512.Idx → α) (a : Fin 512) (b : Fin 1000) :
    broadcastInDim S512x1000 ![0] bcast_S512_S512x1000_0 y (ix2 a b) = y (ix1 a) :=
  broadcastInDim_apply _ bcast_S512_S512x1000_0 y (ix2 a b) (ix1 a) (fun d => match d with
    | ⟨0, _⟩ => by show a.val = if (512 : Nat) = 1 then 0 else a.val; rw [if_neg (by decide)])

/-- A column of 512 recast to a vector reads, at a, its entry (a, 0). -/
private theorem column_apply (x : S512x1.Idx → α) (a : Fin 512) :
    shapeCast S512 x shapeCasts_S512x1_S512 (ix1 a) = x (ix2 a 0) :=
  shapeCast_apply x shapeCasts_S512x1_S512 (ix1 a) (ix2 a 0) (by
    rewrite [Shape.rowMajor_val_two, Shape.rowMajor_val_one]
    show a.val * 1 + 0 = a.val
    omega)

/-- The first 1000 columns of a 512 x 1024 array read, at (a, b), its entry (a, b). -/
private theorem cut_apply (x : S512x1024.Idx → α) (a : Fin 512) (b : Fin 1000) (hb : b.val < 1024) :
    extractStridedSlice S512x1000 ![0, 0] x slices_S512x1024_S512x1000_0_0 (ix2 a b) = x (ix2 a ⟨b.val, hb⟩) :=
  extractStridedSlice_apply ![0, 0] x slices_S512x1024_S512x1000_0_0 (ix2 a b) (ix2 a ⟨b.val, hb⟩) (fun d => match d with
    | ⟨0, _⟩ => by show a.val = 0 + a.val; omega
    | ⟨1, _⟩ => by show b.val = 0 + b.val; omega)

end Reads

/-! ## The region exits the closing operations read -/

/-- The energy column is no array of region 1 and neither host stretch between the regions writes it: the closing
    operations read it as region 0 left it. -/
private theorem W5_v3_1 : W5 m c (Proc.devRef .tc main_v3_1) = W2 m c (Proc.devRef .tc main_v3_1) :=
  by
  refine (W5_of_ne m c main_v3_1 (by decide)).trans ?_
  show StableHlo.after hostOps1_1 (StableHlo.after hostOps1 (W2 m c)) (Proc.devRef .tc main_v3_1) = _
  after_results

/-! ## The two results -/

/-- The first result: the positive energy of row i / 1000. -/
theorem out0_final (i : Fin 512000) :
    (W6 m c (Proc.devRef .tc main_v9) : FVec Ideal S512000x1 .f32) (ix2 i 0) = out0 (pe (embM m c) (aP m c)) i := by
  have hq : i.val / 1000 < 512 := by have := i.isLt; omega
  have hr : i.val % 1000 < 1000 := Nat.mod_lt _ (by decide)
  refine (congrFun (v9_eq m c) (ix2 i 0)).trans ?_
  refine (addUnit_apply _ i).trans ?_
  refine (flat_apply _ i hq hr).trans ?_
  refine (repeat_apply _ ⟨i.val / 1000, hq⟩ ⟨i.val % 1000, hr⟩).trans ?_
  refine (column_apply _ ⟨i.val / 1000, hq⟩).trans ?_
  refine (congrFun (W5_v3_1 m c) (ix2 ⟨i.val / 1000, hq⟩ 0)).trans ?_
  exact pe_final m c ⟨i.val / 1000, hq⟩

/-- The second result: the negative energy of row i / 1000 against negative i % 1000. -/
theorem out1_final (i : Fin 512000) :
    (W6 m c (Proc.devRef .tc main_v12) : FVec Ideal S512000x1 .f32) (ix2 i 0) = out1 (ne (embM m c) (aNw m c)) i := by
  have hq : i.val / 1000 < 512 := by have := i.isLt; omega
  have hr : i.val % 1000 < 1000 := Nat.mod_lt _ (by decide)
  refine (congrFun (v12_eq m c) (ix2 i 0)).trans ?_
  refine (addUnit_apply _ i).trans ?_
  refine (flat_apply _ i hq hr).trans ?_
  refine (cut_apply _ ⟨i.val / 1000, hq⟩ ⟨i.val % 1000, hr⟩ (by show i.val % 1000 < 1024; omega)).trans ?_
  exact ne_final m c ⟨i.val / 1000, hq⟩ ⟨i.val % 1000, hr⟩

end Cert.KernelIdeal.Val

end
-- ==== Proof.RefValue.lean ====
/-
  The idealized reference's two results in terms of its launch arguments: the specification's stacked positive and
  negative energies. Each operation of the reference is read at an index; the batch statistics, the normalisation,
  the product with the transposed weights, the bias, the two energies and the final layout operations compose to the
  specification's formulas, the additive zero words of the sums dropped.
-/
import proofs.«103377_j10213432230335_1_alg».proof.Proof.Gen.ReferenceIdeal.Read
import proofs.«103377_j10213432230335_1_alg».proof.Proof.Spec

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open Cert.Spec

section Stages

variable (x0 : FVec Ideal S512x4096 .f32) (x1 : FVec Ideal S512x512 .f32) (x2 : FVec Ideal S1000x512 .f32)
  (x3 x4 : FVec Ideal S4096 .f32) (x5 : FVec Ideal S512x4096 .f32) (x6 : FVec Ideal S512 .f32)

/-- The quotient of the column sum by 512, read at feature d, is the batch mean of column d. -/
theorem mean_stage (d : Fin 4096) :
    Read.val_main_v2 (F := Ideal) x0 (ix1 d) = mean (fun r d => x0 (ix2 r d)) d := by
  rw [Read.val_main_v2_apply, Read.val_main_v0_apply, Read.val_main_v1_apply, Read.val_main_cst_apply, Read.val_main_cst_0_apply]
  simp only [Ideal.hostDivf_def, Ideal.ofBits_def, Ideal.ofBits_zero_f32, zero_add]
  unfold mean
  refine congrArg (Ideal.div · _) (Finset.sum_congr rfl fun k _ => congrArg x0 ?_)
  funext a; match a with | ⟨0, _⟩ => rfl | ⟨1, _⟩ => rfl

/-- The batch minus the mean broadcast down the rows (the copy the variance uses), read at (r, d). -/
theorem cen_stage_a (r : Fin 512) (d : Fin 4096) :
    Read.val_main_v5 (F := Ideal) x0 (ix2 r d) = cen (fun r d => x0 (ix2 r d)) r d := by
  rw [Read.val_main_v5_apply, Read.val_main_v4_apply, Read.val_main_v3_apply]
  have e : Read.idx_main_v3 (Read.idx_main_v4 (ix2 r d)) = ix1 d := by
    funext a; match a with | ⟨0, _⟩ => rfl
  rw [e, mean_stage]
  rfl

/-- The batch minus the mean broadcast down the rows (the copy the normalisation uses), read at (r, d). -/
theorem cen_stage_b (r : Fin 512) (d : Fin 4096) :
    Read.val_main_v12 (F := Ideal) x0 (ix2 r d) = cen (fun r d => x0 (ix2 r d)) r d := by
  rw [Read.val_main_v12_apply, Read.val_main_v11_apply, Read.val_main_v10_apply]
  have e : Read.idx_main_v10 (Read.idx_main_v11 (ix2 r d)) = ix1 d := by
    funext a; match a with | ⟨0, _⟩ => rfl
  rw [e, mean_stage]
  rfl

/-- The quotient by 512 of the column sum of the squared centred entries is the biased variance of column d. -/
theorem var_stage (d : Fin 4096) :
    Read.val_main_v9 (F := Ideal) x0 (ix1 d) = var (fun r d => x0 (ix2 r d)) d := by
  rw [Read.val_main_v9_apply, Read.val_main_v7_apply, Read.val_main_v8_apply, Read.val_main_cst_1_apply, Read.val_main_cst_2_apply]
  simp only [Ideal.hostDivf_def, Ideal.ofBits_def, Ideal.ofBits_zero_f32, zero_add]
  unfold var
  refine congrArg (Ideal.div · _) (Finset.sum_congr rfl fun k _ => ?_)
  have e : Read.idx_main_v7 (ix1 d) k = ix2 k d := by
    funext a; match a with | ⟨0, _⟩ => rfl | ⟨1, _⟩ => rfl
  rw [e, Read.val_main_v6_apply, cen_stage_a]
  rfl

/-- The reciprocal square root of the variance plus the offset, read at feature d. -/
theorem istd_stage (d : Fin 4096) :
    Read.val_main_v15 (F := Ideal) x0 (ix1 d) = istd (fun r d => x0 (ix2 r d)) d := by
  rw [Read.val_main_v15_apply, Read.val_main_v14_apply, Read.val_main_v13_apply, Read.val_main_cst_3_apply, var_stage]
  rfl

/-- The centred entry times the reciprocal deviation times the scale plus the shift, read at (r, d). -/
theorem vfn_stage (r : Fin 512) (d : Fin 4096) :
    Read.val_main_v24 (F := Ideal) x0 x3 x4 (ix2 r d)
      = vfn (fun r d => x0 (ix2 r d)) (fun d => x3 (ix1 d)) (fun d => x4 (ix1 d)) r d := by
  rw [Read.val_main_v24_apply, Read.val_main_v21_apply, Read.val_main_v18_apply, Read.val_main_v17_apply,
    Read.val_main_v16_apply, Read.val_main_v20_apply, Read.val_main_v19_apply, Read.val_main_v23_apply,
    Read.val_main_v22_apply, cen_stage_b]
  have e1 : Read.idx_main_v16 (Read.idx_main_v17 (ix2 r d)) = ix1 d := by
    funext a; match a with | ⟨0, _⟩ => rfl
  have e2 : Read.idx_main_v19 (Read.idx_main_v20 (ix2 r d)) = ix1 d := by
    funext a; match a with | ⟨0, _⟩ => rfl
  have e3 : Read.idx_main_v22 (Read.idx_main_v23 (ix2 r d)) = ix1 d := by
    funext a; match a with | ⟨0, _⟩ => rfl
  rw [e1, e2, e3, istd_stage]
  rfl

/-- The transposed weights read at (d, e) are the weights at (e, d). -/
theorem wT_stage (d : Fin 4096) (e : Fin 512) :
    Read.val_main_v25 (F := Ideal) x5 (ix2 d e) = x5 (ix2 e d) := by
  rw [Read.val_main_v25_apply]
  refine congrArg x5 ?_
  funext a; match a with | ⟨0, _⟩ => rfl | ⟨1, _⟩ => rfl

/-- The product of the normalised batch with the transposed weights plus the bias row, read at (r, e). -/
theorem emb_stage (r e : Fin 512) :
    Read.val_main_v29 (F := Ideal) x0 x3 x4 x5 x6 (ix2 r e)
      = emb (fun r d => x0 (ix2 r d)) (fun d => x3 (ix1 d)) (fun d => x4 (ix1 d)) (fun e d => x5 (ix2 e d))
          (fun e => x6 (ix1 e)) r e := by
  rw [Read.val_main_v29_apply, Read.val_main_v26_apply, Read.val_main_v28_apply, Read.val_main_v27_apply]
  have e1 : Read.idx_main_v27 (Read.idx_main_v28 (ix2 r e)) = ix1 e := by
    funext a; match a with | ⟨0, _⟩ => rfl
  rw [e1]
  simp only [Ideal.addf_def]
  unfold emb dotW
  refine congrArg (· + _) (Finset.sum_congr rfl fun k _ => ?_)
  have el : Read.lidx_main_v26 (ix2 r e) k = ix2 r k := by
    funext a; match a with | ⟨0, _⟩ => rfl | ⟨1, _⟩ => rfl
  have er : Read.ridx_main_v26 (ix2 r e) k = ix2 k e := by
    funext a; match a with | ⟨0, _⟩ => rfl | ⟨1, _⟩ => rfl
  rw [el, er, vfn_stage, wT_stage]

/-- The row sum of the squared positive parts of the positives minus the embedding, read at row r. -/
theorem pe_stage (r : Fin 512) :
    Read.val_main_v33 (F := Ideal) x0 x1 x3 x4 x5 x6 (ix1 r)
      = pe (emb (fun r d => x0 (ix2 r d)) (fun d => x3 (ix1 d)) (fun d => x4 (ix1 d)) (fun e d => x5 (ix2 e d))
          (fun e => x6 (ix1 e))) (fun r e => x1 (ix2 r e)) r := by
  rw [Read.val_main_v33_apply, Read.val_main_cst_4_apply]
  simp only [Ideal.ofBits_def, Ideal.ofBits_zero_f32, zero_add]
  unfold pe
  refine Finset.sum_congr rfl fun k _ => ?_
  have e : Read.idx_main_v33 (ix1 r) k = ix2 r k := by
    funext a; match a with | ⟨0, _⟩ => rfl | ⟨1, _⟩ => rfl
  rw [e, Read.val_main_v32_apply, Read.val_main_v31_apply, Read.val_main_v30_apply, Read.val_main_call0_v0_apply,
    Read.val_main_call0_cst_apply, emb_stage]
  rfl

/-- The sum over the last axis of the squared positive parts of the negatives minus the embedding, read at (r, n). -/
theorem ne_stage (r : Fin 512) (n : Fin 1000) :
    Read.val_main_v41 (F := Ideal) x0 x2 x3 x4 x5 x6 (ix2 r n)
      = ne (emb (fun r d => x0 (ix2 r d)) (fun d => x3 (ix1 d)) (fun d => x4 (ix1 d)) (fun e d => x5 (ix2 e d))
          (fun e => x6 (ix1 e))) (fun n e => x2 (ix2 n e)) r n := by
  rw [Read.val_main_v41_apply, Read.val_main_cst_5_apply]
  simp only [Ideal.ofBits_def, Ideal.ofBits_zero_f32, zero_add]
  unfold ne
  refine Finset.sum_congr rfl fun k _ => ?_
  have e : Read.idx_main_v41 (ix2 r n) k = ix3 r n k := by
    funext a; match a with | ⟨0, _⟩ => rfl | ⟨1, _⟩ => rfl | ⟨2, _⟩ => rfl
  rw [e, Read.val_main_v40_apply, Read.val_main_v39_apply, Read.val_main_v38_apply, Read.val_main_call1_v0_apply,
    Read.val_main_call1_cst_apply, Read.val_main_v36_apply, Read.val_main_v34_apply, Read.val_main_v37_apply,
    Read.val_main_v35_apply]
  have e1 : Read.idx_main_v34 (Read.idx_main_v36 (ix3 r n k)) = ix2 n k := by
    funext a; match a with | ⟨0, _⟩ => rfl | ⟨1, _⟩ => rfl
  have e2 : Read.idx_main_v35 (Read.idx_main_v37 (ix3 r n k)) = ix2 r k := by
    funext a; match a with | ⟨0, _⟩ => rfl | ⟨1, _⟩ => rfl
  rw [e1, e2, emb_stage]
  rfl

end Stages

variable (m : (ℓ : Loc nD τ sig) → Buf (Elt Ideal) ℓ) (c : Dev nD)

/-- The batch: 512 rows of 4096 features. -/
def rVf : Fin 512 → Fin 4096 → EReal := fun r d => (m ((c.tc : Thread nD τ).loc main_arg0) : FVec Ideal S512x4096 .f32) (ix2 r d)
/-- The positives. -/
def rP : Fin 512 → Fin 512 → EReal := fun r e => (m ((c.tc : Thread nD τ).loc main_arg1) : FVec Ideal S512x512 .f32) (ix2 r e)
/-- The negatives. -/
def rNw : Fin 1000 → Fin 512 → EReal := fun n e => (m ((c.tc : Thread nD τ).loc main_arg2) : FVec Ideal S1000x512 .f32) (ix2 n e)
/-- The per-feature scale. -/
def rG : Fin 4096 → EReal := fun d => (m ((c.tc : Thread nD τ).loc main_arg3) : FVec Ideal S4096 .f32) (ix1 d)
/-- The per-feature shift. -/
def rBe : Fin 4096 → EReal := fun d => (m ((c.tc : Thread nD τ).loc main_arg4) : FVec Ideal S4096 .f32) (ix1 d)
/-- The weights. -/
def rW : Fin 512 → Fin 4096 → EReal := fun e d => (m ((c.tc : Thread nD τ).loc main_arg5) : FVec Ideal S512x4096 .f32) (ix2 e d)
/-- The bias. -/
def rB : Fin 512 → EReal := fun e => (m ((c.tc : Thread nD τ).loc main_arg6) : FVec Ideal S512 .f32) (ix1 e)

/-- The specification's embedding of the reference's launch arguments. -/
def embR : Fin 512 → Fin 512 → EReal := emb (rVf m c) (rG m c) (rBe m c) (rW m c) (rB m c)

/-- The reference's first result at row i: the positive energy of row i / 1000. -/
theorem out0_ref (i : Fin 512000) :
    (Cert.ReferenceIdeal.Value.res_out0 (F := Ideal) m c : FVec Ideal S512000x1 .f32) (ix2 i 0) = out0 (pe (embR m c) (rP m c)) i := by
  refine (congrFun (Read.val_main_v44_eq (F := Ideal) m c) (ix2 i 0)).trans ?_
  rw [Read.val_main_v44_apply, Read.val_main_v43_apply, Read.val_main_v42_apply]
  have e : Read.idx_main_v42 (Read.idx_main_v43 (Read.idx_main_v44 (ix2 i 0)))
      = ix1 (⟨i.val / 1000, by have := i.isLt; omega⟩ : Fin 512) := by
    funext a; match a with | ⟨0, _⟩ => rfl
  rw [e]
  exact pe_stage _ _ _ _ _ _ _

/-- The reference's second result at row i: the negative energy of row i / 1000 against negative i % 1000. -/
theorem out1_ref (i : Fin 512000) :
    (Cert.ReferenceIdeal.Value.res_out1 (F := Ideal) m c : FVec Ideal S512000x1 .f32) (ix2 i 0) = out1 (ne (embR m c) (rNw m c)) i := by
  refine (congrFun (Read.val_main_v46_eq (F := Ideal) m c) (ix2 i 0)).trans ?_
  rw [Read.val_main_v46_apply, Read.val_main_v45_apply]
  have e : Read.idx_main_v45 (Read.idx_main_v46 (ix2 i 0))
      = ix2 (⟨i.val / 1000, by have := i.isLt; omega⟩ : Fin 512) (⟨i.val % 1000, Nat.mod_lt _ (by decide)⟩ : Fin 1000) := by
    funext a; match a with | ⟨0, _⟩ => rfl | ⟨1, _⟩ => rfl
  rw [e]
  exact ne_stage _ _ _ _ _ _ _ _

end Cert.ReferenceIdeal.RefValue

end
-- ==== Proof.lean ====
/-
  The certificate: the embedding-and-energies kernel (two pallas_calls: a column-tiled batch-norm + matmul accumulated
  over four tiles with the bias and the positive energy emitted at the last, then a tiled negative-energy kernel over
  the negatives padded to 1024 rows) against its jnp reference.

  * Both word-level and idealized kernel programs run to the end, fault nowhere and leave their arguments unchanged:
    the launch, then the program's six items in order, each region's body run case by case with the accumulator
    tracked in the region's invariant.
  * The ideal pass rewrote nothing, so the idealization claim is trivial.
  * At the ideal instance the two programs' results agree: both are the specification's stacked energies. On the
    kernel's side the accumulator after the four tiles is the sum over all 4096 features regrouped into four sums of
    1024 (addition on the extended reals is commutative and associative; no other law is used, so the precondition is
    never opened); the padded rows of the negatives never reach a result (the closing slice drops them). On the
    reference's side each operation is read at an index.
-/
import proofs.«103377_j10213432230335_1_alg».proof.Defs
import proofs.«103377_j10213432230335_1_alg».proof.Proof.Gen.Kernel
import proofs.«103377_j10213432230335_1_alg».proof.Proof.Gen.KernelIdeal
import proofs.«103377_j10213432230335_1_alg».proof.Proof.Gen.ReferenceIdeal
import proofs.«103377_j10213432230335_1_alg».proof.Proof.Gen.Pre_finite_inputs
import proofs.«103377_j10213432230335_1_alg».proof.Proof.Bits.Run
import proofs.«103377_j10213432230335_1_alg».proof.Proof.Ideal.Run
import proofs.«103377_j10213432230335_1_alg».proof.Proof.Ideal.Tail
import proofs.«103377_j10213432230335_1_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames and the idealization -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)
theorem preserves : Cert.preserves_Kernel_KernelIdeal := trivial

/-! ## The two programs' results agree -/

section Agree

open Cert.KernelIdeal.Val Cert.ReferenceIdeal.RefValue Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- A column of 512000 entries is determined by its entries at (i, 0). -/
theorem col_ext (x y : FVec Ideal Cert.KernelIdeal.S512000x1 .f32) (h : ∀ i : Fin 512000, x (ix2 i 0) = y (ix2 i 0)) : x = y := by
  funext j
  obtain ⟨i, z, rfl⟩ : ∃ (i : Fin 512000) (z : Fin 1), j = ix2 i z := ⟨j 0, j 1, eq_ix2 j⟩
  obtain rfl : z = 0 := Subsingleton.elim _ _
  exact h i

end Agree

theorem algebraic : Cert.algebraic_KernelIdeal_ReferenceIdeal := by
  intro m ρ m' ρ' _ hagree
  refine ⟨fun c => Cert.KernelIdeal.Hand.W6 m c (Proc.devRef .tc Cert.KernelIdeal.main_v9),
    fun c => Cert.KernelIdeal.Hand.W6 m c (Proc.devRef .tc Cert.KernelIdeal.main_v12), ?_, ?_⟩
  · refine (θ_run Cert.KernelIdeal.defs _ _).mono (fun _ h c => ?_) (Cert.KernelIdeal.Hand.run (F := Ideal) m ρ)
    exact ⟨h c _ (Cert.KernelIdeal.Hand.mem_uc Cert.KernelIdeal.main_v9 (by decide)),
      h c _ (Cert.KernelIdeal.Hand.mem_uc Cert.KernelIdeal.main_v12 (by decide)),
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c)⟩
  · refine (θ_run Cert.ReferenceIdeal.defs _ _).mono (fun _ h c => ?_) (Cert.ReferenceIdeal.Value.run (F := Ideal) m' ρ')
    -- the reference's arguments are the kernel's
    have e0 : Cert.ReferenceIdeal.RefValue.rVf m' c = Cert.KernelIdeal.Val.aVf m c := by
      unfold Cert.ReferenceIdeal.RefValue.rVf Cert.KernelIdeal.Val.aVf; rw [(hagree c).1]
    have e1 : Cert.ReferenceIdeal.RefValue.rP m' c = Cert.KernelIdeal.Val.aP m c := by
      unfold Cert.ReferenceIdeal.RefValue.rP Cert.KernelIdeal.Val.aP; rw [(hagree c).2.1]
    have e2 : Cert.ReferenceIdeal.RefValue.rNw m' c = Cert.KernelIdeal.Val.aNw m c := by
      unfold Cert.ReferenceIdeal.RefValue.rNw Cert.KernelIdeal.Val.aNw; rw [(hagree c).2.2.1]
    have e3 : Cert.ReferenceIdeal.RefValue.rG m' c = Cert.KernelIdeal.Val.aG m c := by
      unfold Cert.ReferenceIdeal.RefValue.rG Cert.KernelIdeal.Val.aG; rw [(hagree c).2.2.2.1]
    have e4 : Cert.ReferenceIdeal.RefValue.rBe m' c = Cert.KernelIdeal.Val.aBe m c := by
      unfold Cert.ReferenceIdeal.RefValue.rBe Cert.KernelIdeal.Val.aBe; rw [(hagree c).2.2.2.2.1]
    have e5 : Cert.ReferenceIdeal.RefValue.rW m' c = Cert.KernelIdeal.Val.aW m c := by
      unfold Cert.ReferenceIdeal.RefValue.rW Cert.KernelIdeal.Val.aW; rw [(hagree c).2.2.2.2.2.1]
    have e6 : Cert.ReferenceIdeal.RefValue.rB m' c = Cert.KernelIdeal.Val.aB m c := by
      unfold Cert.ReferenceIdeal.RefValue.rB Cert.KernelIdeal.Val.aB; rw [(hagree c).2.2.2.2.2.2]
    have eE : Cert.ReferenceIdeal.RefValue.embR m' c = Cert.KernelIdeal.Val.embM m c := by
      unfold Cert.ReferenceIdeal.RefValue.embR Cert.KernelIdeal.Val.embM; rw [e0, e3, e4, e5, e6]
    refine ⟨(h c).1.trans ?_, (h c).2.1.trans ?_, (h c).2.2⟩
    · refine col_ext _ _ fun i => ?_
      refine (Cert.ReferenceIdeal.RefValue.out0_ref m' c i).trans ?_
      rw [eE, e1]
      exact (Cert.KernelIdeal.Val.out0_final m c i).symm
    · refine col_ext _ _ fun i => ?_
      refine (Cert.ReferenceIdeal.RefValue.out1_ref m' c i).trans ?_
      rw [eE, e2]
      exact (Cert.KernelIdeal.Val.out1_final m c i).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
